-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4x4096x256 .f32) (main_arg1 : FVec F S256x256 .f32) (main_arg2 : FVec F S256x256 .f32) (main_arg3 : FVec F S256x256 .f32) (main_arg4 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x4096x256 : Shape := ⟨3, ![4, 4096, 256]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S4x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x512x256, .f32⟩
  | .local _ .vmem, ⟨9, _⟩ => ⟨S1x512x256, .f32⟩
  | .local _ .vmem, ⟨10, _⟩ => ⟨S512x256, .f32⟩
  | .local _ .vmem, ⟨11, _⟩ => ⟨S512x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_22 : BitVec 32 := 0#32
  let v43 : BitVec 1 := Scalar.cmpi .ne v42 c0_i32_22
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  shapeCasts_S512x256_S1x512x256 : S512x256.ShapeCasts S1x512x256
  dot_S512x256_S256x256_S512x256_1_0_0_1_n_n_wf : DotDims.WF S512x256 S256x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .f32 = 32 ∨ (Rect.block (s := S4x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S4x4096x256.size a
  hwx0_1 : ∀ i : grid0.Coords, EltTy.bits .f32 = 32 ∨ (Rect.block (s := S4x4096x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S4x4096x256.size a
  hwx0_6 : ∀ i : grid0.Coords, EltTy.bits .f32 = 32 ∨ (Rect.block (s := S4x4096x256) S1x512x256.size (cc0_transform_6 i) (hinb0_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S_ : Shape := ⟨0, ![]⟩
abbrev S4x4096x4096 : Shape := ⟨3, ![4, 4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S4x4096x256, .f32⟩
  | .hbm, ⟨6, _⟩ => ⟨S_, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x256, .f32⟩
  | .hbm, ⟨30, _⟩ => ⟨S_, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S_, .f32⟩
  | .hbm, ⟨35, _⟩ => ⟨S4x4096x256, .f32⟩
  | .hbm, ⟨36, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S4x4096x256 : S_.BroadcastsInDim S4x4096x256 (![] : Fin 0 → Fin S4x4096x256.rank)
  bcast_S_S4x4096x4096 : S_.BroadcastsInDim S4x4096x4096 (![] : Fin 0 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Kernel.Kit.lean ====
/-
  The attention kernel's pipeline, the parts every later module is stated over: the arrays as the region finds them,
  each input window's block at a grid point, the two branch conditions of the body in closed form over the 4 x 8 x 8 grid
  (the first key tile of a query tile: point = 0 mod 8; the last: point = 7 mod 8), where the output window is idle, and
  the staging and scratch memrefs. Written for any float instance.
-/
import proofs.«120606_j7679401525969_1_alg».proof.Proof.Gen.Kernel.Launch
import proofs.«120606_j7679401525969_1_alg».proof.Proof.Gen.Kernel.Skeleton
import proofs.«120606_j7679401525969_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffer contents when the region is entered: the launch contents (no host operation comes first). -/
abbrev V (c : Dev nD) (b : Ref sig .tc) : Buf (Elt F) ((c : Thread nD τ).loc b) := m ((c : Thread nD τ).loc b)

/-- @main reduces to the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first key tile of the query tile" (the body's first `scf.if`: grid coordinate 2 is 0), as the kernel computes it. -/
abbrev condFirst (i : grid0.Coords) : Prop := (Scalar.cmpi .ne (Scalar.extui (Scalar.cmpi .eq (BitVec.ofNat 32 (i 2).val) 0#32)) 0#32) = 1#1
/-- It holds at the points = 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- "This is the last key tile" (the body's second `scf.if`: grid coordinate 2 is 7). -/
abbrev condLast (i : grid0.Coords) : Prop := k0_cond2 i = 1#1
/-- It holds at the points = 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
/-- Away from the last key tile the body stores nothing into the output window, and the pipeline does not write it back. -/
theorem idleAt6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
/-- At the last key tile the body stores the output block. -/
theorem liveAt6 : ∀ t : Fin cfg0.N, condLast (grid0.coords t) → cfg0.idle 6 (grid0.coords t) = false := by decide +kernel

/-! ## The memrefs the body is called with -/

abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x256 .f32 := win0_6.stage (cfg0.slots t 6)
abbrev hs6 (t : Fin cfg0.N) : (ms6 t).IsWhole := hstage0_6 ((cfg0.slots t 6).cast nbuf0_6)
/-- The two scratch operands: the query tile's projection, and the accumulator over key tiles. -/
abbrev scQ : Memref sig .tc .vmem S512x256 .f32 := Memref.whole cc0_scratch0
abbrev scA : Memref sig .tc .vmem S512x256 .f32 := Memref.whole cc0_scratch1
/-- Views through which the output block's and the scratches' contents are stated. -/
abbrev VO6 : View sig .tc .vmem S1x512x256 .f32 := (Memref.whole cc0_stg6_0 : Memref sig .tc .vmem S1x512x256 .f32).view
abbrev VSQ : View sig .tc .vmem S512x256 .f32 := scQ.view
abbrev VSA : View sig .tc .vmem S512x256 .f32 := scA.view

/-- The body at a point, as the kernel function's call on these memrefs. -/
theorem bodyAt0_eq (t : Fin cfg0.N) : bodyAt0 (F := F) t = cc0__attn_kernel (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) := rfl

/-- The class invariant with the scratch operands as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scA fullShare d)) ∗ (∃ r, prngReg c r)) := by
  unfold Pipeline.ΦA; rw [scopedRest0_eq]; simp only [scQ, scA, owns_whole]; try rfl

end Cert.Kernel.Attn

end
-- ==== Proof.Kernel.RunMid.lean ====
/-
  The kernel body run once, whole, in the case "neither the first nor the last key tile": from each staging and scratch memref owned whole at
  named contents, to the same memrefs with the body's stores laid over them as pieces (last store first). The pieces are
  found by running the body symbolically; nothing the body computes is restated here.
-/
import proofs.«120606_j7679401525969_1_alg».proof.Proof.Kernel.Kit

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunMid (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : ¬condFirst i) (hc1 : ¬condLast i)
    (xq xk : Vec F S1x512x256 .f32) (wq wk wv wo : Vec F S256x256 .f32) (sq sa : Vec F S512x256 .f32) :
    { LSA : List (View.Piece (Elt F) S512x256 .f32) //
      ∀ (xo : Vec F S1x512x256 .f32) (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ owns (c : Thread nD τ) arg10 fullShare sq ∗ owns (c : Thread nD τ) arg11 fullShare sa
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ owns (c : Thread nD τ) arg10 fullShare sq ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, fun xo E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact H11

end Cert.Kernel.Attn

end
-- ==== Proof.Kernel.RunFirst.lean ====
/-
  The kernel body run once, whole, in the case "the first key tile of a query tile: the query projection is computed and stored, the accumulator reset, whatever the scratches held": from each staging and scratch memref owned whole at
  named contents, to the same memrefs with the body's stores laid over them as pieces (last store first). The pieces are
  found by running the body symbolically; nothing the body computes is restated here.
-/
import proofs.«120606_j7679401525969_1_alg».proof.Proof.Kernel.RunMid

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunFirst (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : condFirst i) (hc1 : ¬condLast i)
    (xq xk : Vec F S1x512x256 .f32) (wq wk wv wo : Vec F S256x256 .f32) :
    Σ' (LSQ : List (View.Piece (Elt F) S512x256 .f32)), { LSA : List (View.Piece (Elt F) S512x256 .f32) //
      ∀ (xo : Vec F S1x512x256 .f32) (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ (∃ d, owns (c : Thread nD τ) arg10 fullShare d) ∗ (∃ d, owns (c : Thread nD τ) arg11 fullShare d)
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ (∃ f, arg10.view.loc (c : Thread nD τ) ↦[arg10.view.set]{fullShare} arg10.view.writes (Elt F) f LSQ) ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, fun xo E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.Kernel.Attn

end
-- ==== Proof.Kernel.RunLast.lean ====
/-
  The kernel body run once, whole, in the case "the last key tile: after the accumulator's update the output block is computed from it and stored": from each staging and scratch memref owned whole at
  named contents, to the same memrefs with the body's stores laid over them as pieces (last store first). The pieces are
  found by running the body symbolically; nothing the body computes is restated here.
-/
import proofs.«120606_j7679401525969_1_alg».proof.Proof.Kernel.RunFirst

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunLast (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : ¬condFirst i) (hc1 : condLast i)
    (xq xk : Vec F S1x512x256 .f32) (wq wk wv wo : Vec F S256x256 .f32) (sq sa : Vec F S512x256 .f32) :
    Σ' (LO : List (View.Piece (Elt F) S1x512x256 .f32)), { LSA : List (View.Piece (Elt F) S512x256 .f32) //
      ∀ (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ (∃ d, owns (c : Thread nD τ) arg9 fullShare d) ∗ owns (c : Thread nD τ) arg10 fullShare sq ∗ owns (c : Thread nD τ) arg11 fullShare sa
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ (∃ f, arg9.view.loc (c : Thread nD τ) ↦[arg9.view.set]{fullShare} arg9.view.writes (Elt F) f LO) ∗ owns (c : Thread nD τ) arg10 fullShare sq ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    iexists _; iexact H11

end Cert.Kernel.Attn

end
-- ==== Proof.Kernel.Data.lean ====
/-
  What the attention kernel carries from one grid point to the next, and the proof data of its pipeline.

  The grid is 4 batches x 8 query tiles x 8 key tiles, walked with the key tile fastest, so a point `t` is the first key
  tile of its query tile when `t % 8 = 0` and the last when `t % 8 = 7`. Two scratch buffers live across the eight key
  tiles of one query tile: the query tile's projection (written at the first key tile, read at all eight) and the
  accumulator (reset at the first, added to at every one, read out at the last). `scrAt` says what the pair holds after
  each point, one point's effect being `stepScr`: at a first tile whatever the first-tile run leaves, whatever was
  there; otherwise the projection kept and the accumulator as the run leaves it over what the point before left.
  `outAt` is the output block the last key tile stores. Each of these is the run's pieces read back — the runs'
  witnesses; what they are as arithmetic is read off elsewhere.

  The activations' array is handed to the kernel twice (as the query block's window and as the key block's): the two
  windows hold the two halves of its share, every other array is held whole.
-/
import proofs.«120606_j7679401525969_1_alg».proof.Proof.Kernel.RunLast

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body finds, at their literal types -/

abbrev xqB (c : Dev nD) (t : Fin cfg0.N) : Vec F S1x512x256 .f32 := iblk m c 0 t
abbrev xkB (c : Dev nD) (t : Fin cfg0.N) : Vec F S1x512x256 .f32 := iblk m c 1 t
abbrev wqB (c : Dev nD) (t : Fin cfg0.N) : Vec F S256x256 .f32 := iblk m c 2 t
abbrev wkB (c : Dev nD) (t : Fin cfg0.N) : Vec F S256x256 .f32 := iblk m c 3 t
abbrev wvB (c : Dev nD) (t : Fin cfg0.N) : Vec F S256x256 .f32 := iblk m c 4 t
abbrev woB (c : Dev nD) (t : Fin cfg0.N) : Vec F S256x256 .f32 := iblk m c 5 t

/-! ## The three runs at a grid point -/

abbrev runFirstAt (c : Dev nD) (t : Fin cfg0.N) (h0 : condFirst (grid0.coords t)) (h1 : ¬condLast (grid0.coords t)) :=
  kernelRunFirst (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t)
abbrev runMidAt (c : Dev nD) (t : Fin cfg0.N) (h0 : ¬condFirst (grid0.coords t)) (h1 : ¬condLast (grid0.coords t)) (sq sa : Vec F S512x256 .f32) :=
  kernelRunMid (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t) sq sa
abbrev runLastAt (c : Dev nD) (t : Fin cfg0.N) (h0 : ¬condFirst (grid0.coords t)) (h1 : condLast (grid0.coords t)) (sq sa : Vec F S512x256 .f32) :=
  kernelRunLast (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t) sq sa

/-! ## Each run's stores cover the buffer they go to -/

theorem coverQ_first (c : Dev nD) (t : Fin cfg0.N) (h0 : condFirst (grid0.coords t)) (h1 : ¬condLast (grid0.coords t)) (y : S512x256.Idx) :
    ∃ pc ∈ (runFirstAt m c t h0 h1).1, y ∈ pc.1.set :=
  View.cover_of_tiledL (runFirstAt m c t h0 h1).1 S512x256.size (by sl_kernel_rfl) y
theorem coverA_first (c : Dev nD) (t : Fin cfg0.N) (h0 : condFirst (grid0.coords t)) (h1 : ¬condLast (grid0.coords t)) (y : S512x256.Idx) :
    ∃ pc ∈ (runFirstAt m c t h0 h1).2.1, y ∈ pc.1.set :=
  View.cover_of_tiledL (runFirstAt m c t h0 h1).2.1 S512x256.size (by sl_kernel_rfl) y
theorem coverA_mid (c : Dev nD) (t : Fin cfg0.N) (h0 : ¬condFirst (grid0.coords t)) (h1 : ¬condLast (grid0.coords t)) (sq sa : Vec F S512x256 .f32) (y : S512x256.Idx) :
    ∃ pc ∈ (runMidAt m c t h0 h1 sq sa).1, y ∈ pc.1.set :=
  View.cover_of_tiledL (runMidAt m c t h0 h1 sq sa).1 S512x256.size (by sl_kernel_rfl) y
theorem coverO_last (c : Dev nD) (t : Fin cfg0.N) (h0 : ¬condFirst (grid0.coords t)) (h1 : condLast (grid0.coords t)) (sq sa : Vec F S512x256 .f32) (y : S1x512x256.Idx) :
    ∃ pc ∈ (runLastAt m c t h0 h1 sq sa).1, y ∈ pc.1.set :=
  View.cover_of_tiledL (runLastAt m c t h0 h1 sq sa).1 S1x512x256.size (by sl_kernel_rfl) y
theorem coverA_last (c : Dev nD) (t : Fin cfg0.N) (h0 : ¬condFirst (grid0.coords t)) (h1 : condLast (grid0.coords t)) (sq sa : Vec F S512x256 .f32) (y : S512x256.Idx) :
    ∃ pc ∈ (runLastAt m c t h0 h1 sq sa).2.1, y ∈ pc.1.set :=
  View.cover_of_tiledL (runLastAt m c t h0 h1 sq sa).2.1 S512x256.size (by sl_kernel_rfl) y

/-! ## What each run leaves: its pieces read back -/

/-- The query projection the first key tile's run leaves in the first scratch. -/
def sqFirst (c : Dev nD) (t : Fin cfg0.N) (h0 : condFirst (grid0.coords t)) (h1 : ¬condLast (grid0.coords t)) : Vec F S512x256 .f32 :=
  VSQ.read (Elt F) (VSQ.writes (Elt F) VSQ.junk (runFirstAt m c t h0 h1).1)
/-- The accumulator after the first key tile. -/
def saFirst (c : Dev nD) (t : Fin cfg0.N) (h0 : condFirst (grid0.coords t)) (h1 : ¬condLast (grid0.coords t)) : Vec F S512x256 .f32 :=
  VSA.read (Elt F) (VSA.writes (Elt F) VSA.junk (runFirstAt m c t h0 h1).2.1)
/-- The accumulator after a middle key tile, over projection `sq` and accumulator `sa` found. -/
def saMid (c : Dev nD) (t : Fin cfg0.N) (h0 : ¬condFirst (grid0.coords t)) (h1 : ¬condLast (grid0.coords t)) (sq sa : Vec F S512x256 .f32) : Vec F S512x256 .f32 :=
  VSA.read (Elt F) (VSA.writes (Elt F) VSA.junk (runMidAt m c t h0 h1 sq sa).1)
/-- The accumulator after the last key tile, -/
def saLast (c : Dev nD) (t : Fin cfg0.N) (h0 : ¬condFirst (grid0.coords t)) (h1 : condLast (grid0.coords t)) (sq sa : Vec F S512x256 .f32) : Vec F S512x256 .f32 :=
  VSA.read (Elt F) (VSA.writes (Elt F) VSA.junk (runLastAt m c t h0 h1 sq sa).2.1)
/-- and the output block it stores. -/
def outLast (c : Dev nD) (t : Fin cfg0.N) (h0 : ¬condFirst (grid0.coords t)) (h1 : condLast (grid0.coords t)) (sq sa : Vec F S512x256 .f32) : Vec F S1x512x256 .f32 :=
  VO6.read (Elt F) (VO6.writes (Elt F) VO6.junk (runLastAt m c t h0 h1 sq sa).1)

/-! ## The scratch pair, point by point -/

/-- Contents nobody names: what the scratches hold before the first point. -/
def junkScr : Vec F S512x256 .f32 × Vec F S512x256 .f32 := (VSQ.read (Elt F) VSQ.junk, VSA.read (Elt F) VSA.junk)

theorem notLast_of_first (t : Fin cfg0.N) (h0 : t.val % 8 = 0) : ¬condLast (grid0.coords t) := fun h => by
  have := (hcondLast t).mp h; omega
theorem notFirst_of (t : Fin cfg0.N) (h0 : ¬t.val % 8 = 0) : ¬condFirst (grid0.coords t) := fun h => h0 ((hcondFirst t).mp h)
theorem notLast_of (t : Fin cfg0.N) (h1 : ¬t.val % 8 = 7) : ¬condLast (grid0.coords t) := fun h => h1 ((hcondLast t).mp h)

/-- One point's effect on (projection, accumulator). -/
def stepScr (c : Dev nD) (t : Fin cfg0.N) (prev : Vec F S512x256 .f32 × Vec F S512x256 .f32) : Vec F S512x256 .f32 × Vec F S512x256 .f32 :=
  if h0 : t.val % 8 = 0 then
    (sqFirst m c t ((hcondFirst t).mpr h0) (notLast_of_first t h0), saFirst m c t ((hcondFirst t).mpr h0) (notLast_of_first t h0))
  else if h1 : t.val % 8 = 7 then
    (prev.1, saLast m c t (notFirst_of t h0) ((hcondLast t).mpr h1) prev.1 prev.2)
  else
    (prev.1, saMid m c t (notFirst_of t h0) (notLast_of t h1) prev.1 prev.2)

/-- What the pair holds after the body at point `n`. -/
def scrAt (c : Dev nD) : (n : ℕ) → n < cfg0.N → Vec F S512x256 .f32 × Vec F S512x256 .f32
  | 0, hn => stepScr m c ⟨0, hn⟩ junkScr
  | n + 1, hn => stepScr m c ⟨n + 1, hn⟩ (scrAt c n (Nat.lt_of_succ_lt hn))

/-- What it holds when the body starts at point `n`. -/
def scrBefore (c : Dev nD) : (n : ℕ) → n < cfg0.N → Vec F S512x256 .f32 × Vec F S512x256 .f32
  | 0, _ => junkScr
  | n + 1, hn => scrAt m c n (Nat.lt_of_succ_lt hn)

theorem scrAt_eq (c : Dev nD) (t : Fin cfg0.N) : scrAt m c t.val t.isLt = stepScr m c t (scrBefore m c t.val t.isLt) := by
  obtain ⟨n, hn⟩ := t
  cases n <;> rfl

theorem scrAt_first (c : Dev nD) (t : Fin cfg0.N) (h0 : t.val % 8 = 0) :
    scrAt m c t.val t.isLt = (sqFirst m c t ((hcondFirst t).mpr h0) (notLast_of_first t h0), saFirst m c t ((hcondFirst t).mpr h0) (notLast_of_first t h0)) := by
  rw [scrAt_eq]; unfold stepScr; rw [dif_pos h0]
theorem scrAt_mid (c : Dev nD) (t : Fin cfg0.N) (h0 : ¬t.val % 8 = 0) (h1 : ¬t.val % 8 = 7) :
    scrAt m c t.val t.isLt = ((scrBefore m c t.val t.isLt).1, saMid m c t (notFirst_of t h0) (notLast_of t h1) (scrBefore m c t.val t.isLt).1 (scrBefore m c t.val t.isLt).2) := by
  rw [scrAt_eq]; unfold stepScr; rw [dif_neg h0, dif_neg h1]
theorem scrAt_last (c : Dev nD) (t : Fin cfg0.N) (h0 : ¬t.val % 8 = 0) (h1 : t.val % 8 = 7) :
    scrAt m c t.val t.isLt = ((scrBefore m c t.val t.isLt).1, saLast m c t (notFirst_of t h0) ((hcondLast t).mpr h1) (scrBefore m c t.val t.isLt).1 (scrBefore m c t.val t.isLt).2) := by
  rw [scrAt_eq]; unfold stepScr; rw [dif_neg h0, dif_pos h1]

/-- The output block after the body at point `t`: stored at the last key tile; at the other points nothing is stored
    and nothing reads this placeholder (the window is idle there and not written back). -/
def outAt (c : Dev nD) (t : Fin cfg0.N) : Vec F S1x512x256 .f32 :=
  if h1 : t.val % 8 = 7 then
    outLast m c t (fun h => by have := (hcondFirst t).mp h; omega) ((hcondLast t).mpr h1) (scrBefore m c t.val t.isLt).1 (scrBefore m c t.val t.isLt).2
  else VO6.read (Elt F) VO6.junk

theorem outAt_last (c : Dev nD) (t : Fin cfg0.N) (h0 : ¬t.val % 8 = 0) (h1 : t.val % 8 = 7) :
    outAt m c t = outLast m c t (notFirst_of t h0) ((hcondLast t).mpr h1) (scrBefore m c t.val t.isLt).1 (scrBefore m c t.val t.isLt).2 := by
  unfold outAt; rw [dif_pos h1]

/-! ## The invariant between points -/

/-- Both scratches at anything: all the core's scoped buffers that are no staging buffer. -/
def scratchAny (c : Dev nD) : sProp 𝕄 :=
  iprop((∃ d, owns (c : Thread nD τ) scQ fullShare d) ∗ (∃ d, owns (c : Thread nD τ) scA fullShare d))

theorem scopedRest_eq_scratchAny (c : Dev nD) :
    (Pipeline.scopedRest (Ix := Unit) (Name := ℕ) (U := UR sig nD τ) (Lvl := ℕ) (Val := Elt F) spec0 c : sProp 𝕄) = scratchAny c := by
  unfold scratchAny; rw [scopedRest0_eq]; simp only [scQ, scA, owns_whole]; try rfl

/-- Before point `n`: the scratches at anything before the first point, then at what the point before left. -/
def carried (c : Dev nD) : (n : ℕ) → n ≤ cfg0.N → sProp 𝕄
  | 0, _ => scratchAny c
  | n + 1, hn => iprop(owns (c : Thread nD τ) scQ fullShare (scrAt m c n hn).1 ∗ owns (c : Thread nD τ) scA fullShare (scrAt m c n hn).2)

theorem carried_zero (c : Dev nD) (h : 0 ≤ cfg0.N) : carried m c 0 h = scratchAny c := rfl
theorem carried_succ (c : Dev nD) (n : ℕ) (hn : n < cfg0.N) :
    carried m c (n + 1) hn = iprop(owns (c : Thread nD τ) scQ fullShare (scrAt m c n hn).1 ∗ owns (c : Thread nD τ) scA fullShare (scrAt m c n hn).2) := rfl
/-- At a point that is not the first, the body finds the scratches at `scrBefore`. -/
theorem carried_at_pos (c : Dev nD) (t : Fin cfg0.N) (hz : t.val ≠ 0) :
    carried m c t.val (Nat.le_of_lt t.isLt)
      = iprop(owns (c : Thread nD τ) scQ fullShare (scrBefore m c t.val t.isLt).1 ∗ owns (c : Thread nD τ) scA fullShare (scrBefore m c t.val t.isLt).2) := by
  obtain ⟨n, hn⟩ := t
  cases n with
  | zero => exact absurd rfl hz
  | succ n => rfl

/-! ## The pipeline's proof data -/

/-- Arrays as the region finds them; after the body each input's buffer still at its block and the output's at `outAt`;
    between points the carried scratches; the activations' share halved between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := carried m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = carried m c t.val (Nat.le_of_lt t.isLt) := by
  dsimp only [dats]; simp only [Fin.coe_castSucc]
theorem Phi_succ (c : Dev nD) (t : Fin cfg0.N) :
    (dats m 0 c).Φ t.succ = iprop(owns (c : Thread nD τ) scQ fullShare (scrAt m c t.val t.isLt).1 ∗ owns (c : Thread nD τ) scA fullShare (scrAt m c t.val t.isLt).2) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.Kernel.Attn

end
-- ==== Proof.Kernel.Body.lean ====
/-
  The body obligation of the attention kernel's pipeline: at every grid point, from the invariant before the point and each
  window's staging buffer at what it holds there, the kernel body runs to the invariant after the point and each buffer at
  what the proof data says it leaves. Three kinds of point (first key tile of a query tile, a middle one, the last), each
  the corresponding whole-body run with its pieces read back through the stores' cover.
-/
import proofs.«120606_j7679401525969_1_alg».proof.Proof.Kernel.Data

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and the seven windows' current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The first key tile of the very first query tile: the scratches come at contents nobody names; the run overwrites
    both whole, so what it leaves is its pieces read back. -/
theorem sound_body_first_zero (c : Dev nD) (t : Fin cfg0.N) (h0 : t.val % 8 = 0) (hz : t.val = 0) :
    bodyPre m c t ⊢ wp frame (wpE (defs₀ (F := F)) Variants.none c none) Set.univ (bodyAt0 t) (fun _ => bodyPost m c t) := by
  have hF := (hcondFirst t).mpr h0
  have hL := notLast_of_first t h0
  have hcar : carried m c t.val (Nat.le_of_lt t.isLt) = scratchAny c := by
    obtain ⟨n, hn⟩ := t
    cases n with
    | zero => rfl
    | succ n => exact absurd hz (Nat.succ_ne_zero n)
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, hcar]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  unfold scratchAny
  rw [Dat.leavesExact_idle (dats m 0 c) 6 t (idleAt6 t hL) (noFlush6 t hL)]
  rw [scrAt_first m c t h0]
  unfold sqFirst saFirst; dsimp only
  iintro ⟨⟨⟨%dq, HQ⟩, ⟨%da, HA⟩⟩, Ho, ⟨%d0, H0⟩, ⟨%d1, H1⟩, ⟨%d2, H2⟩, ⟨%d3, H3⟩, ⟨%d4, H4⟩, ⟨%d5, H5⟩, ⟨%d6, H6⟩⟩
  iapply ((runFirstAt m c t hF hL).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexists _; iexact HQ
  isplitl [HA]; · iexists _; iexact HA
  iintro ⟨H0, H1, H2, H3, H4, H5, H6, ⟨%fq, HQ⟩, ⟨%fa, HA⟩⟩
  isplitl [HQ HA]
  · isplitl [HQ]
    · unfold owns; iexists _; isplitr
      swap; · iexact HQ
      ipureintro; exact View.read_writes_of_cover _ _ _ _ _ (coverQ_first m c t _ _)
    unfold owns; iexists _; isplitr
    swap; · iexact HA
    ipureintro; exact View.read_writes_of_cover _ _ _ _ _ (coverA_first m c t _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The first key tile of a later query tile: the scratches come at what the query tile before left, which the run
    overwrites whole all the same. -/
theorem sound_body_first_pos (c : Dev nD) (t : Fin cfg0.N) (h0 : t.val % 8 = 0) (hz : t.val ≠ 0) :
    bodyPre m c t ⊢ wp frame (wpE (defs₀ (F := F)) Variants.none c none) Set.univ (bodyAt0 t) (fun _ => bodyPost m c t) := by
  have hF := (hcondFirst t).mpr h0
  have hL := notLast_of_first t h0
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [Dat.leavesExact_idle (dats m 0 c) 6 t (idleAt6 t hL) (noFlush6 t hL)]
  rw [scrAt_first m c t h0]
  unfold sqFirst saFirst; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runFirstAt m c t hF hL).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexists _; iexact HQ
  isplitl [HA]; · iexists _; iexact HA
  iintro ⟨H0, H1, H2, H3, H4, H5, H6, ⟨%fq, HQ⟩, ⟨%fa, HA⟩⟩
  isplitl [HQ HA]
  · isplitl [HQ]
    · unfold owns; iexists _; isplitr
      swap; · iexact HQ
      ipureintro; exact View.read_writes_of_cover _ _ _ _ _ (coverQ_first m c t _ _)
    unfold owns; iexists _; isplitr
    swap; · iexact HA
    ipureintro; exact View.read_writes_of_cover _ _ _ _ _ (coverA_first m c t _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- A middle key tile: the projection is kept, the accumulator is the run's pieces over what the point before left, the
    output buffer goes back as it came. -/
theorem sound_body_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hF := notFirst_of t h0
  have hL := notLast_of t h1
  have hz : t.val ≠ 0 := fun h => h0 (by rw [h])
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [Dat.leavesExact_idle (dats m 0 c) 6 t (idleAt6 t hL) (noFlush6 t hL)]
  rw [scrAt_mid m c t h0 h1]
  unfold saMid; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runMidAt m c t hF hL _ _).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexact HQ
  isplitl [HA]; · iexact HA
  iintro ⟨H0, H1, H2, H3, H4, H5, H6, HQ, ⟨%fa, HA⟩⟩
  isplitl [HQ HA]
  · isplitl [HQ]; · iexact HQ
    unfold owns; iexists _; isplitr
    swap; · iexact HA
    ipureintro; exact View.read_writes_of_cover _ _ _ _ _ (coverA_mid m c t _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The last key tile: the projection is kept, the accumulator is the run's pieces, and the output block is stored whole
    over whatever its buffer held. -/
theorem sound_body_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hF := notFirst_of t h0
  have hL := (hcondLast t).mpr h1
  have hz : t.val ≠ 0 := fun h => h0 (by rw [h])
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t hL], after6, outAt_last m c t h0 h1]
  rw [scrAt_last m c t h0 h1]
  unfold saLast outLast; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runLastAt m c t hF hL _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HQ]; · iexact HQ
  isplitl [HA]; · iexact HA
  iintro ⟨H0, H1, H2, H3, H4, H5, ⟨%fo, H6⟩, HQ, ⟨%fa, HA⟩⟩
  isplitl [HQ HA]
  · isplitl [HQ]; · iexact HQ
    unfold owns; iexists _; isplitr
    swap; · iexact HA
    ipureintro; exact View.read_writes_of_cover _ _ _ _ _ (coverA_last m c t _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (coverO_last m c t _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_body_first_zero m c t h0 hz
    · exact sound_body_first_pos m c t h0 hz
  · by_cases h1 : t.val % 8 = 7
    · exact sound_body_last m c t h0 h1
    · exact sound_body_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratches at anything) is the invariant before the first point. -/
theorem hin (c : Dev nD) : iprop(emp ∗ Pipeline.scopedRest spec0 c) ⊢ (dats m 0 c).Φ 0 := by
  rw [show (dats m 0 c).Φ 0 = scratchAny c from rfl, scopedRest_eq_scratchAny]
  iintro ⟨-, H⟩; iexact H

/-- After the last point the invariant gives the scratches back, their contents forgotten. -/
theorem hout (c : Dev nD) : (dats m 0 c).Φ (Fin.last cfg0.N) ⊢ iprop(emp ∗ Pipeline.scopedRest spec0 c) := by
  rw [scopedRest_eq_scratchAny]
  have hN : cfg0.N = 255 + 1 := N_0
  rw [show (dats m 0 c).Φ (Fin.last cfg0.N) = carried m c (Fin.last cfg0.N).val (Nat.le_of_lt_succ (Fin.last cfg0.N).isLt) from rfl]
  have key : ∀ (n : ℕ) (h : n ≤ cfg0.N), n ≠ 0 → carried m c n h ⊢ (scratchAny c : sProp 𝕄) := by
    intro n h hz
    cases n with
    | zero => exact absurd rfl hz
    | succ n =>
      rw [carried_succ]; unfold scratchAny
      iintro ⟨HQ, HA⟩
      isplitl [HQ]
      · iexists _; iexact HQ
      · iexists _; iexact HA
  refine (key _ _ (by rw [Fin.val_last]; omega)).trans ?_
  iintro H; isplitr; · iempintro
  iexact H

end Cert.Kernel.Attn

end
-- ==== Proof.Kernel.Launch.lean ====
/-
  The launch of the attention kernel's one region, and the frame: at the compiled mesh, from any memory with zero
  counters, every weakly fair execution of @main terminates with every array of the pipeline at what the proof data
  computes — the five argument arrays as they were (no window writes them), the result array overwritten block by block
  by what the last key tile of each query tile stored.

  The activations' array is read through two windows. The launch hands the pipeline each array's buffer whole; the
  split gives the two windows the two halves of the activations' share and every other window its array outright.
-/
import proofs.«120606_j7679401525969_1_alg».proof.Proof.Kernel.Body
import Idealize.ShloMosaic.Lib.Pipeline.Launch
import Idealize.ShloMosaic.Lib.Pipeline.Kit

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the pipeline's ghost state: every staging cell's owner at round 0 and a duty token for every
    transfer the pipeline issues. -/
def u₀ : UR sig nD τ := initOf (Pipeline.cells cfgs cellOf_inj) (Pipeline.launchToks cfgs cellOf_inj)

/-- The distinct buffers behind the seven windows' arrays are six: the activations', the four weights', the result's. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_arg4 ∗ Φ main_v0) :=
  Idealize.SL.BI.bigSep_eq_bigSepL_of_eq [main_arg0, main_arg1, main_arg2, main_arg3, main_arg4, main_v0] (by decide) (by decide) Φ

/-- The buffers behind the windows' arrays, each whole, make the proof data's arrays at entry: the activations' buffer
    split in two halves for windows 0 and 1, the four weights and the result each to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrs]
  iintro ⟨H0, H1, H2, H3, H4, H5⟩
  ihave H0' := (pointsTo_share (PosShare.mem_left_op_right fullShare)).1 $$ H0
  icases H0' with ⟨H0l, H0r⟩
  isplitl [H0l]
  · rw [(arr_whole0 0).set_eq_univ]; iexact H0l
  isplitl [H0r]
  · rw [(arr_whole0 1).set_eq_univ]; iexact H0r
  isplitl [H1]
  · rw [(arr_whole0 2).set_eq_univ]; iexact H1
  isplitl [H2]
  · rw [(arr_whole0 3).set_eq_univ]; iexact H2
  isplitl [H3]
  · rw [(arr_whole0 4).set_eq_univ]; iexact H3
  isplitl [H4]
  · rw [(arr_whole0 5).set_eq_univ]; iexact H4
  rw [(arr_whole0 6).set_eq_univ]; iexact H5

/-- The run. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0)
    (harr := arr_whole0) (hstage := stage_whole0) (howed := fun _ _ => rfl)
    (u₀ := u₀) (hu₀ := BI.Entails.refl _)
    (V := V m)
    (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- An argument array is an input of the pipeline: after the run it holds what it held. The result array holds what the
    write-backs of the last key tiles left. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨h c 6,
      (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5))⟩) (run_main m ρ)

/-- THE FRAME: every weakly fair execution terminates, nothing faulting, the five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_named m ρ)

end Cert.Kernel.Attn

end
-- ==== Proof.KernelIdeal.Kit.lean ====
/-
  The attention kernel's pipeline, the parts every later module is stated over: the arrays as the region finds them,
  each input window's block at a grid point, the two branch conditions of the body in closed form over the 4 x 8 x 8 grid
  (the first key tile of a query tile: point = 0 mod 8; the last: point = 7 mod 8), where the output window is idle, and
  the staging and scratch memrefs. Written for any float instance.
-/
import proofs.«120606_j7679401525969_1_alg».proof.Proof.Gen.KernelIdeal.Launch
import proofs.«120606_j7679401525969_1_alg».proof.Proof.Gen.KernelIdeal.Skeleton
import proofs.«120606_j7679401525969_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffer contents when the region is entered: the launch contents (no host operation comes first). -/
abbrev V (c : Dev nD) (b : Ref sig .tc) : Buf (Elt F) ((c : Thread nD τ).loc b) := m ((c : Thread nD τ).loc b)

/-- @main reduces to the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first key tile of the query tile" (the body's first `scf.if`: grid coordinate 2 is 0), as the kernel computes it. -/
abbrev condFirst (i : grid0.Coords) : Prop := (Scalar.cmpi .ne (Scalar.extui (Scalar.cmpi .eq (BitVec.ofNat 32 (i 2).val) 0#32)) 0#32) = 1#1
/-- It holds at the points = 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- "This is the last key tile" (the body's second `scf.if`: grid coordinate 2 is 7). -/
abbrev condLast (i : grid0.Coords) : Prop := k0_cond2 i = 1#1
/-- It holds at the points = 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
/-- Away from the last key tile the body stores nothing into the output window, and the pipeline does not write it back. -/
theorem idleAt6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
/-- At the last key tile the body stores the output block. -/
theorem liveAt6 : ∀ t : Fin cfg0.N, condLast (grid0.coords t) → cfg0.idle 6 (grid0.coords t) = false := by decide +kernel

/-! ## The memrefs the body is called with -/

abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x256 .f32 := win0_6.stage (cfg0.slots t 6)
abbrev hs6 (t : Fin cfg0.N) : (ms6 t).IsWhole := hstage0_6 ((cfg0.slots t 6).cast nbuf0_6)
/-- The two scratch operands: the query tile's projection, and the accumulator over key tiles. -/
abbrev scQ : Memref sig .tc .vmem S512x256 .f32 := Memref.whole cc0_scratch0
abbrev scA : Memref sig .tc .vmem S512x256 .f32 := Memref.whole cc0_scratch1
/-- Views through which the output block's and the scratches' contents are stated. -/
abbrev VO6 : View sig .tc .vmem S1x512x256 .f32 := (Memref.whole cc0_stg6_0 : Memref sig .tc .vmem S1x512x256 .f32).view
abbrev VSQ : View sig .tc .vmem S512x256 .f32 := scQ.view
abbrev VSA : View sig .tc .vmem S512x256 .f32 := scA.view

/-- The body at a point, as the kernel function's call on these memrefs. -/
theorem bodyAt0_eq (t : Fin cfg0.N) : bodyAt0 (F := F) t = cc0__attn_kernel (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) := rfl

/-- The class invariant with the scratch operands as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scA fullShare d)) ∗ (∃ r, prngReg c r)) := by
  unfold Pipeline.ΦA; rw [scopedRest0_eq]; simp only [scQ, scA, owns_whole]; try rfl

end Cert.KernelIdeal.Attn

end
-- ==== Proof.KernelIdeal.RunMid.lean ====
/-
  The kernel body run once, whole, in the case "neither the first nor the last key tile": from each staging and scratch memref owned whole at
  named contents, to the same memrefs with the body's stores laid over them as pieces (last store first). The pieces are
  found by running the body symbolically; nothing the body computes is restated here.
-/
import proofs.«120606_j7679401525969_1_alg».proof.Proof.KernelIdeal.Kit

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunMid (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : ¬condFirst i) (hc1 : ¬condLast i)
    (xq xk : Vec F S1x512x256 .f32) (wq wk wv wo : Vec F S256x256 .f32) (sq sa : Vec F S512x256 .f32) :
    { LSA : List (View.Piece (Elt F) S512x256 .f32) //
      ∀ (xo : Vec F S1x512x256 .f32) (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ owns (c : Thread nD τ) arg10 fullShare sq ∗ owns (c : Thread nD τ) arg11 fullShare sa
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ owns (c : Thread nD τ) arg10 fullShare sq ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, fun xo E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact H11

end Cert.KernelIdeal.Attn

end
-- ==== Proof.KernelIdeal.RunFirst.lean ====
/-
  The kernel body run once, whole, in the case "the first key tile of a query tile: the query projection is computed and stored, the accumulator reset, whatever the scratches held": from each staging and scratch memref owned whole at
  named contents, to the same memrefs with the body's stores laid over them as pieces (last store first). The pieces are
  found by running the body symbolically; nothing the body computes is restated here.
-/
import proofs.«120606_j7679401525969_1_alg».proof.Proof.KernelIdeal.RunMid

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunFirst (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : condFirst i) (hc1 : ¬condLast i)
    (xq xk : Vec F S1x512x256 .f32) (wq wk wv wo : Vec F S256x256 .f32) :
    Σ' (LSQ : List (View.Piece (Elt F) S512x256 .f32)), { LSA : List (View.Piece (Elt F) S512x256 .f32) //
      ∀ (xo : Vec F S1x512x256 .f32) (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ (∃ d, owns (c : Thread nD τ) arg10 fullShare d) ∗ (∃ d, owns (c : Thread nD τ) arg11 fullShare d)
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ owns (c : Thread nD τ) arg9 fullShare xo ∗ (∃ f, arg10.view.loc (c : Thread nD τ) ↦[arg10.view.set]{fullShare} arg10.view.writes (Elt F) f LSQ) ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, fun xo E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.KernelIdeal.Attn

end
-- ==== Proof.KernelIdeal.RunLast.lean ====
/-
  The kernel body run once, whole, in the case "the last key tile: after the accumulator's update the output block is computed from it and stored": from each staging and scratch memref owned whole at
  named contents, to the same memrefs with the body's stores laid over them as pieces (last store first). The pieces are
  found by running the body symbolically; nothing the body computes is restated here.
-/
import proofs.«120606_j7679401525969_1_alg».proof.Proof.KernelIdeal.RunFirst

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunLast (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x256 .f32) (harg10 : arg10.IsWhole) (arg11 : Memref sig .tc .vmem S512x256 .f32) (harg11 : arg11.IsWhole) (hc0 : ¬condFirst i) (hc1 : condLast i)
    (xq xk : Vec F S1x512x256 .f32) (wq wk wv wo : Vec F S256x256 .f32) (sq sa : Vec F S512x256 .f32) :
    Σ' (LO : List (View.Piece (Elt F) S1x512x256 .f32)), { LSA : List (View.Piece (Elt F) S512x256 .f32) //
      ∀ (E : Set ℕ) (K : PUnit → sProp 𝕄),
        iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ (∃ d, owns (c : Thread nD τ) arg9 fullShare d) ∗ owns (c : Thread nD τ) arg10 fullShare sq ∗ owns (c : Thread nD τ) arg11 fullShare sa
            ∗ (iprop(owns (c : Thread nD τ) arg3 fullShare xq ∗ owns (c : Thread nD τ) arg4 fullShare xk ∗ owns (c : Thread nD τ) arg5 fullShare wq ∗ owns (c : Thread nD τ) arg6 fullShare wk ∗ owns (c : Thread nD τ) arg7 fullShare wv ∗ owns (c : Thread nD τ) arg8 fullShare wo ∗ (∃ f, arg9.view.loc (c : Thread nD τ) ↦[arg9.view.set]{fullShare} arg9.view.writes (Elt F) f LO) ∗ owns (c : Thread nD τ) arg10 fullShare sq ∗ (∃ f, arg11.view.loc (c : Thread nD τ) ↦[arg11.view.set]{fullShare} arg11.view.writes (Elt F) f LSA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    iexists _; iexact H11

end Cert.KernelIdeal.Attn

end
-- ==== Proof.KernelIdeal.Data.lean ====
/-
  What the attention kernel carries from one grid point to the next, and the proof data of its pipeline.

  The grid is 4 batches x 8 query tiles x 8 key tiles, walked with the key tile fastest, so a point `t` is the first key
  tile of its query tile when `t % 8 = 0` and the last when `t % 8 = 7`. Two scratch buffers live across the eight key
  tiles of one query tile: the query tile's projection (written at the first key tile, read at all eight) and the
  accumulator (reset at the first, added to at every one, read out at the last). `scrAt` says what the pair holds after
  each point, one point's effect being `stepScr`: at a first tile whatever the first-tile run leaves, whatever was
  there; otherwise the projection kept and the accumulator as the run leaves it over what the point before left.
  `outAt` is the output block the last key tile stores. Each of these is the run's pieces read back — the runs'
  witnesses; what they are as arithmetic is read off elsewhere.

  The activations' array is handed to the kernel twice (as the query block's window and as the key block's): the two
  windows hold the two halves of its share, every other array is held whole.
-/
import proofs.«120606_j7679401525969_1_alg».proof.Proof.KernelIdeal.RunLast

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body finds, at their literal types -/

abbrev xqB (c : Dev nD) (t : Fin cfg0.N) : Vec F S1x512x256 .f32 := iblk m c 0 t
abbrev xkB (c : Dev nD) (t : Fin cfg0.N) : Vec F S1x512x256 .f32 := iblk m c 1 t
abbrev wqB (c : Dev nD) (t : Fin cfg0.N) : Vec F S256x256 .f32 := iblk m c 2 t
abbrev wkB (c : Dev nD) (t : Fin cfg0.N) : Vec F S256x256 .f32 := iblk m c 3 t
abbrev wvB (c : Dev nD) (t : Fin cfg0.N) : Vec F S256x256 .f32 := iblk m c 4 t
abbrev woB (c : Dev nD) (t : Fin cfg0.N) : Vec F S256x256 .f32 := iblk m c 5 t

/-! ## The three runs at a grid point -/

abbrev runFirstAt (c : Dev nD) (t : Fin cfg0.N) (h0 : condFirst (grid0.coords t)) (h1 : ¬condLast (grid0.coords t)) :=
  kernelRunFirst (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t)
abbrev runMidAt (c : Dev nD) (t : Fin cfg0.N) (h0 : ¬condFirst (grid0.coords t)) (h1 : ¬condLast (grid0.coords t)) (sq sa : Vec F S512x256 .f32) :=
  kernelRunMid (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t) sq sa
abbrev runLastAt (c : Dev nD) (t : Fin cfg0.N) (h0 : ¬condFirst (grid0.coords t)) (h1 : condLast (grid0.coords t)) (sq sa : Vec F S512x256 .f32) :=
  kernelRunLast (F := F) c (grid0.coords t) (ms0 t) (hs0 t) (ms1 t) (hs1 t) (ms2 t) (hs2 t) (ms3 t) (hs3 t) (ms4 t) (hs4 t) (ms5 t) (hs5 t) (ms6 t) (hs6 t) scQ (Memref.isWhole_whole _) scA (Memref.isWhole_whole _) h0 h1 (xqB m c t) (xkB m c t) (wqB m c t) (wkB m c t) (wvB m c t) (woB m c t) sq sa

/-! ## Each run's stores cover the buffer they go to -/

theorem coverQ_first (c : Dev nD) (t : Fin cfg0.N) (h0 : condFirst (grid0.coords t)) (h1 : ¬condLast (grid0.coords t)) (y : S512x256.Idx) :
    ∃ pc ∈ (runFirstAt m c t h0 h1).1, y ∈ pc.1.set :=
  View.cover_of_tiledL (runFirstAt m c t h0 h1).1 S512x256.size (by sl_kernel_rfl) y
theorem coverA_first (c : Dev nD) (t : Fin cfg0.N) (h0 : condFirst (grid0.coords t)) (h1 : ¬condLast (grid0.coords t)) (y : S512x256.Idx) :
    ∃ pc ∈ (runFirstAt m c t h0 h1).2.1, y ∈ pc.1.set :=
  View.cover_of_tiledL (runFirstAt m c t h0 h1).2.1 S512x256.size (by sl_kernel_rfl) y
theorem coverA_mid (c : Dev nD) (t : Fin cfg0.N) (h0 : ¬condFirst (grid0.coords t)) (h1 : ¬condLast (grid0.coords t)) (sq sa : Vec F S512x256 .f32) (y : S512x256.Idx) :
    ∃ pc ∈ (runMidAt m c t h0 h1 sq sa).1, y ∈ pc.1.set :=
  View.cover_of_tiledL (runMidAt m c t h0 h1 sq sa).1 S512x256.size (by sl_kernel_rfl) y
theorem coverO_last (c : Dev nD) (t : Fin cfg0.N) (h0 : ¬condFirst (grid0.coords t)) (h1 : condLast (grid0.coords t)) (sq sa : Vec F S512x256 .f32) (y : S1x512x256.Idx) :
    ∃ pc ∈ (runLastAt m c t h0 h1 sq sa).1, y ∈ pc.1.set :=
  View.cover_of_tiledL (runLastAt m c t h0 h1 sq sa).1 S1x512x256.size (by sl_kernel_rfl) y
theorem coverA_last (c : Dev nD) (t : Fin cfg0.N) (h0 : ¬condFirst (grid0.coords t)) (h1 : condLast (grid0.coords t)) (sq sa : Vec F S512x256 .f32) (y : S512x256.Idx) :
    ∃ pc ∈ (runLastAt m c t h0 h1 sq sa).2.1, y ∈ pc.1.set :=
  View.cover_of_tiledL (runLastAt m c t h0 h1 sq sa).2.1 S512x256.size (by sl_kernel_rfl) y

/-! ## What each run leaves: its pieces read back -/

/-- The query projection the first key tile's run leaves in the first scratch. -/
def sqFirst (c : Dev nD) (t : Fin cfg0.N) (h0 : condFirst (grid0.coords t)) (h1 : ¬condLast (grid0.coords t)) : Vec F S512x256 .f32 :=
  VSQ.read (Elt F) (VSQ.writes (Elt F) VSQ.junk (runFirstAt m c t h0 h1).1)
/-- The accumulator after the first key tile. -/
def saFirst (c : Dev nD) (t : Fin cfg0.N) (h0 : condFirst (grid0.coords t)) (h1 : ¬condLast (grid0.coords t)) : Vec F S512x256 .f32 :=
  VSA.read (Elt F) (VSA.writes (Elt F) VSA.junk (runFirstAt m c t h0 h1).2.1)
/-- The accumulator after a middle key tile, over projection `sq` and accumulator `sa` found. -/
def saMid (c : Dev nD) (t : Fin cfg0.N) (h0 : ¬condFirst (grid0.coords t)) (h1 : ¬condLast (grid0.coords t)) (sq sa : Vec F S512x256 .f32) : Vec F S512x256 .f32 :=
  VSA.read (Elt F) (VSA.writes (Elt F) VSA.junk (runMidAt m c t h0 h1 sq sa).1)
/-- The accumulator after the last key tile, -/
def saLast (c : Dev nD) (t : Fin cfg0.N) (h0 : ¬condFirst (grid0.coords t)) (h1 : condLast (grid0.coords t)) (sq sa : Vec F S512x256 .f32) : Vec F S512x256 .f32 :=
  VSA.read (Elt F) (VSA.writes (Elt F) VSA.junk (runLastAt m c t h0 h1 sq sa).2.1)
/-- and the output block it stores. -/
def outLast (c : Dev nD) (t : Fin cfg0.N) (h0 : ¬condFirst (grid0.coords t)) (h1 : condLast (grid0.coords t)) (sq sa : Vec F S512x256 .f32) : Vec F S1x512x256 .f32 :=
  VO6.read (Elt F) (VO6.writes (Elt F) VO6.junk (runLastAt m c t h0 h1 sq sa).1)

/-! ## The scratch pair, point by point -/

/-- Contents nobody names: what the scratches hold before the first point. -/
def junkScr : Vec F S512x256 .f32 × Vec F S512x256 .f32 := (VSQ.read (Elt F) VSQ.junk, VSA.read (Elt F) VSA.junk)

theorem notLast_of_first (t : Fin cfg0.N) (h0 : t.val % 8 = 0) : ¬condLast (grid0.coords t) := fun h => by
  have := (hcondLast t).mp h; omega
theorem notFirst_of (t : Fin cfg0.N) (h0 : ¬t.val % 8 = 0) : ¬condFirst (grid0.coords t) := fun h => h0 ((hcondFirst t).mp h)
theorem notLast_of (t : Fin cfg0.N) (h1 : ¬t.val % 8 = 7) : ¬condLast (grid0.coords t) := fun h => h1 ((hcondLast t).mp h)

/-- One point's effect on (projection, accumulator). -/
def stepScr (c : Dev nD) (t : Fin cfg0.N) (prev : Vec F S512x256 .f32 × Vec F S512x256 .f32) : Vec F S512x256 .f32 × Vec F S512x256 .f32 :=
  if h0 : t.val % 8 = 0 then
    (sqFirst m c t ((hcondFirst t).mpr h0) (notLast_of_first t h0), saFirst m c t ((hcondFirst t).mpr h0) (notLast_of_first t h0))
  else if h1 : t.val % 8 = 7 then
    (prev.1, saLast m c t (notFirst_of t h0) ((hcondLast t).mpr h1) prev.1 prev.2)
  else
    (prev.1, saMid m c t (notFirst_of t h0) (notLast_of t h1) prev.1 prev.2)

/-- What the pair holds after the body at point `n`. -/
def scrAt (c : Dev nD) : (n : ℕ) → n < cfg0.N → Vec F S512x256 .f32 × Vec F S512x256 .f32
  | 0, hn => stepScr m c ⟨0, hn⟩ junkScr
  | n + 1, hn => stepScr m c ⟨n + 1, hn⟩ (scrAt c n (Nat.lt_of_succ_lt hn))

/-- What it holds when the body starts at point `n`. -/
def scrBefore (c : Dev nD) : (n : ℕ) → n < cfg0.N → Vec F S512x256 .f32 × Vec F S512x256 .f32
  | 0, _ => junkScr
  | n + 1, hn => scrAt m c n (Nat.lt_of_succ_lt hn)

theorem scrAt_eq (c : Dev nD) (t : Fin cfg0.N) : scrAt m c t.val t.isLt = stepScr m c t (scrBefore m c t.val t.isLt) := by
  obtain ⟨n, hn⟩ := t
  cases n <;> rfl

theorem scrAt_first (c : Dev nD) (t : Fin cfg0.N) (h0 : t.val % 8 = 0) :
    scrAt m c t.val t.isLt = (sqFirst m c t ((hcondFirst t).mpr h0) (notLast_of_first t h0), saFirst m c t ((hcondFirst t).mpr h0) (notLast_of_first t h0)) := by
  rw [scrAt_eq]; unfold stepScr; rw [dif_pos h0]
theorem scrAt_mid (c : Dev nD) (t : Fin cfg0.N) (h0 : ¬t.val % 8 = 0) (h1 : ¬t.val % 8 = 7) :
    scrAt m c t.val t.isLt = ((scrBefore m c t.val t.isLt).1, saMid m c t (notFirst_of t h0) (notLast_of t h1) (scrBefore m c t.val t.isLt).1 (scrBefore m c t.val t.isLt).2) := by
  rw [scrAt_eq]; unfold stepScr; rw [dif_neg h0, dif_neg h1]
theorem scrAt_last (c : Dev nD) (t : Fin cfg0.N) (h0 : ¬t.val % 8 = 0) (h1 : t.val % 8 = 7) :
    scrAt m c t.val t.isLt = ((scrBefore m c t.val t.isLt).1, saLast m c t (notFirst_of t h0) ((hcondLast t).mpr h1) (scrBefore m c t.val t.isLt).1 (scrBefore m c t.val t.isLt).2) := by
  rw [scrAt_eq]; unfold stepScr; rw [dif_neg h0, dif_pos h1]

/-- The output block after the body at point `t`: stored at the last key tile; at the other points nothing is stored
    and nothing reads this placeholder (the window is idle there and not written back). -/
def outAt (c : Dev nD) (t : Fin cfg0.N) : Vec F S1x512x256 .f32 :=
  if h1 : t.val % 8 = 7 then
    outLast m c t (fun h => by have := (hcondFirst t).mp h; omega) ((hcondLast t).mpr h1) (scrBefore m c t.val t.isLt).1 (scrBefore m c t.val t.isLt).2
  else VO6.read (Elt F) VO6.junk

theorem outAt_last (c : Dev nD) (t : Fin cfg0.N) (h0 : ¬t.val % 8 = 0) (h1 : t.val % 8 = 7) :
    outAt m c t = outLast m c t (notFirst_of t h0) ((hcondLast t).mpr h1) (scrBefore m c t.val t.isLt).1 (scrBefore m c t.val t.isLt).2 := by
  unfold outAt; rw [dif_pos h1]

/-! ## The invariant between points -/

/-- Both scratches at anything: all the core's scoped buffers that are no staging buffer. -/
def scratchAny (c : Dev nD) : sProp 𝕄 :=
  iprop((∃ d, owns (c : Thread nD τ) scQ fullShare d) ∗ (∃ d, owns (c : Thread nD τ) scA fullShare d))

theorem scopedRest_eq_scratchAny (c : Dev nD) :
    (Pipeline.scopedRest (Ix := Unit) (Name := ℕ) (U := UR sig nD τ) (Lvl := ℕ) (Val := Elt F) spec0 c : sProp 𝕄) = scratchAny c := by
  unfold scratchAny; rw [scopedRest0_eq]; simp only [scQ, scA, owns_whole]; try rfl

/-- Before point `n`: the scratches at anything before the first point, then at what the point before left. -/
def carried (c : Dev nD) : (n : ℕ) → n ≤ cfg0.N → sProp 𝕄
  | 0, _ => scratchAny c
  | n + 1, hn => iprop(owns (c : Thread nD τ) scQ fullShare (scrAt m c n hn).1 ∗ owns (c : Thread nD τ) scA fullShare (scrAt m c n hn).2)

theorem carried_zero (c : Dev nD) (h : 0 ≤ cfg0.N) : carried m c 0 h = scratchAny c := rfl
theorem carried_succ (c : Dev nD) (n : ℕ) (hn : n < cfg0.N) :
    carried m c (n + 1) hn = iprop(owns (c : Thread nD τ) scQ fullShare (scrAt m c n hn).1 ∗ owns (c : Thread nD τ) scA fullShare (scrAt m c n hn).2) := rfl
/-- At a point that is not the first, the body finds the scratches at `scrBefore`. -/
theorem carried_at_pos (c : Dev nD) (t : Fin cfg0.N) (hz : t.val ≠ 0) :
    carried m c t.val (Nat.le_of_lt t.isLt)
      = iprop(owns (c : Thread nD τ) scQ fullShare (scrBefore m c t.val t.isLt).1 ∗ owns (c : Thread nD τ) scA fullShare (scrBefore m c t.val t.isLt).2) := by
  obtain ⟨n, hn⟩ := t
  cases n with
  | zero => exact absurd rfl hz
  | succ n => rfl

/-! ## The pipeline's proof data -/

/-- Arrays as the region finds them; after the body each input's buffer still at its block and the output's at `outAt`;
    between points the carried scratches; the activations' share halved between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := carried m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = carried m c t.val (Nat.le_of_lt t.isLt) := by
  dsimp only [dats]; simp only [Fin.coe_castSucc]
theorem Phi_succ (c : Dev nD) (t : Fin cfg0.N) :
    (dats m 0 c).Φ t.succ = iprop(owns (c : Thread nD τ) scQ fullShare (scrAt m c t.val t.isLt).1 ∗ owns (c : Thread nD τ) scA fullShare (scrAt m c t.val t.isLt).2) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.KernelIdeal.Attn

end
-- ==== Proof.KernelIdeal.Body.lean ====
/-
  The body obligation of the attention kernel's pipeline: at every grid point, from the invariant before the point and each
  window's staging buffer at what it holds there, the kernel body runs to the invariant after the point and each buffer at
  what the proof data says it leaves. Three kinds of point (first key tile of a query tile, a middle one, the last), each
  the corresponding whole-body run with its pieces read back through the stores' cover.
-/
import proofs.«120606_j7679401525969_1_alg».proof.Proof.KernelIdeal.Data

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and the seven windows' current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The first key tile of the very first query tile: the scratches come at contents nobody names; the run overwrites
    both whole, so what it leaves is its pieces read back. -/
theorem sound_body_first_zero (c : Dev nD) (t : Fin cfg0.N) (h0 : t.val % 8 = 0) (hz : t.val = 0) :
    bodyPre m c t ⊢ wp frame (wpE (defs₀ (F := F)) Variants.none c none) Set.univ (bodyAt0 t) (fun _ => bodyPost m c t) := by
  have hF := (hcondFirst t).mpr h0
  have hL := notLast_of_first t h0
  have hcar : carried m c t.val (Nat.le_of_lt t.isLt) = scratchAny c := by
    obtain ⟨n, hn⟩ := t
    cases n with
    | zero => rfl
    | succ n => exact absurd hz (Nat.succ_ne_zero n)
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, hcar]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  unfold scratchAny
  rw [Dat.leavesExact_idle (dats m 0 c) 6 t (idleAt6 t hL) (noFlush6 t hL)]
  rw [scrAt_first m c t h0]
  unfold sqFirst saFirst; dsimp only
  iintro ⟨⟨⟨%dq, HQ⟩, ⟨%da, HA⟩⟩, Ho, ⟨%d0, H0⟩, ⟨%d1, H1⟩, ⟨%d2, H2⟩, ⟨%d3, H3⟩, ⟨%d4, H4⟩, ⟨%d5, H5⟩, ⟨%d6, H6⟩⟩
  iapply ((runFirstAt m c t hF hL).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexists _; iexact HQ
  isplitl [HA]; · iexists _; iexact HA
  iintro ⟨H0, H1, H2, H3, H4, H5, H6, ⟨%fq, HQ⟩, ⟨%fa, HA⟩⟩
  isplitl [HQ HA]
  · isplitl [HQ]
    · unfold owns; iexists _; isplitr
      swap; · iexact HQ
      ipureintro; exact View.read_writes_of_cover _ _ _ _ _ (coverQ_first m c t _ _)
    unfold owns; iexists _; isplitr
    swap; · iexact HA
    ipureintro; exact View.read_writes_of_cover _ _ _ _ _ (coverA_first m c t _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The first key tile of a later query tile: the scratches come at what the query tile before left, which the run
    overwrites whole all the same. -/
theorem sound_body_first_pos (c : Dev nD) (t : Fin cfg0.N) (h0 : t.val % 8 = 0) (hz : t.val ≠ 0) :
    bodyPre m c t ⊢ wp frame (wpE (defs₀ (F := F)) Variants.none c none) Set.univ (bodyAt0 t) (fun _ => bodyPost m c t) := by
  have hF := (hcondFirst t).mpr h0
  have hL := notLast_of_first t h0
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [Dat.leavesExact_idle (dats m 0 c) 6 t (idleAt6 t hL) (noFlush6 t hL)]
  rw [scrAt_first m c t h0]
  unfold sqFirst saFirst; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runFirstAt m c t hF hL).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexists _; iexact HQ
  isplitl [HA]; · iexists _; iexact HA
  iintro ⟨H0, H1, H2, H3, H4, H5, H6, ⟨%fq, HQ⟩, ⟨%fa, HA⟩⟩
  isplitl [HQ HA]
  · isplitl [HQ]
    · unfold owns; iexists _; isplitr
      swap; · iexact HQ
      ipureintro; exact View.read_writes_of_cover _ _ _ _ _ (coverQ_first m c t _ _)
    unfold owns; iexists _; isplitr
    swap; · iexact HA
    ipureintro; exact View.read_writes_of_cover _ _ _ _ _ (coverA_first m c t _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- A middle key tile: the projection is kept, the accumulator is the run's pieces over what the point before left, the
    output buffer goes back as it came. -/
theorem sound_body_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hF := notFirst_of t h0
  have hL := notLast_of t h1
  have hz : t.val ≠ 0 := fun h => h0 (by rw [h])
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [Dat.leavesExact_idle (dats m 0 c) 6 t (idleAt6 t hL) (noFlush6 t hL)]
  rw [scrAt_mid m c t h0 h1]
  unfold saMid; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runMidAt m c t hF hL _ _).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HQ]; · iexact HQ
  isplitl [HA]; · iexact HA
  iintro ⟨H0, H1, H2, H3, H4, H5, H6, HQ, ⟨%fa, HA⟩⟩
  isplitl [HQ HA]
  · isplitl [HQ]; · iexact HQ
    unfold owns; iexists _; isplitr
    swap; · iexact HA
    ipureintro; exact View.read_writes_of_cover _ _ _ _ _ (coverA_mid m c t _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The last key tile: the projection is kept, the accumulator is the run's pieces, and the output block is stored whole
    over whatever its buffer held. -/
theorem sound_body_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hF := notFirst_of t h0
  have hL := (hcondLast t).mpr h1
  have hz : t.val ≠ 0 := fun h => h0 (by rw [h])
  unfold bodyPre bodyPost
  rw [bodyAt0_eq]
  simp only [before0 m c t, before1 m c t, before2 m c t, before3 m c t, before4 m c t, before5 m c t]
  rw [show (dats m 0 c).owesAt () t.succ = (dats m 0 c).owesAt () t.castSucc from rfl]
  rw [Phi_succ, Phi_castSucc, carried_at_pos m c t hz]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t hL], after6, outAt_last m c t h0 h1]
  rw [scrAt_last m c t h0 h1]
  unfold saLast outLast; dsimp only
  iintro ⟨⟨HQ, HA⟩, Ho, ⟨%d0, H0⟩, ⟨%d1, H1⟩, ⟨%d2, H2⟩, ⟨%d3, H3⟩, ⟨%d4, H4⟩, ⟨%d5, H5⟩, ⟨%d6, H6⟩⟩
  iapply ((runLastAt m c t hF hL _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HQ]; · iexact HQ
  isplitl [HA]; · iexact HA
  iintro ⟨H0, H1, H2, H3, H4, H5, ⟨%fo, H6⟩, HQ, ⟨%fa, HA⟩⟩
  isplitl [HQ HA]
  · isplitl [HQ]; · iexact HQ
    unfold owns; iexists _; isplitr
    swap; · iexact HA
    ipureintro; exact View.read_writes_of_cover _ _ _ _ _ (coverA_last m c t _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (coverO_last m c t _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_body_first_zero m c t h0 hz
    · exact sound_body_first_pos m c t h0 hz
  · by_cases h1 : t.val % 8 = 7
    · exact sound_body_last m c t h0 h1
    · exact sound_body_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratches at anything) is the invariant before the first point. -/
theorem hin (c : Dev nD) : iprop(emp ∗ Pipeline.scopedRest spec0 c) ⊢ (dats m 0 c).Φ 0 := by
  rw [show (dats m 0 c).Φ 0 = scratchAny c from rfl, scopedRest_eq_scratchAny]
  iintro ⟨-, H⟩; iexact H

/-- After the last point the invariant gives the scratches back, their contents forgotten. -/
theorem hout (c : Dev nD) : (dats m 0 c).Φ (Fin.last cfg0.N) ⊢ iprop(emp ∗ Pipeline.scopedRest spec0 c) := by
  rw [scopedRest_eq_scratchAny]
  have hN : cfg0.N = 255 + 1 := N_0
  rw [show (dats m 0 c).Φ (Fin.last cfg0.N) = carried m c (Fin.last cfg0.N).val (Nat.le_of_lt_succ (Fin.last cfg0.N).isLt) from rfl]
  have key : ∀ (n : ℕ) (h : n ≤ cfg0.N), n ≠ 0 → carried m c n h ⊢ (scratchAny c : sProp 𝕄) := by
    intro n h hz
    cases n with
    | zero => exact absurd rfl hz
    | succ n =>
      rw [carried_succ]; unfold scratchAny
      iintro ⟨HQ, HA⟩
      isplitl [HQ]
      · iexists _; iexact HQ
      · iexists _; iexact HA
  refine (key _ _ (by rw [Fin.val_last]; omega)).trans ?_
  iintro H; isplitr; · iempintro
  iexact H

end Cert.KernelIdeal.Attn

end
-- ==== Proof.KernelIdeal.Launch.lean ====
/-
  The launch of the attention kernel's one region, and the frame: at the compiled mesh, from any memory with zero
  counters, every weakly fair execution of @main terminates with every array of the pipeline at what the proof data
  computes — the five argument arrays as they were (no window writes them), the result array overwritten block by block
  by what the last key tile of each query tile stored.

  The activations' array is read through two windows. The launch hands the pipeline each array's buffer whole; the
  split gives the two windows the two halves of the activations' share and every other window its array outright.
-/
import proofs.«120606_j7679401525969_1_alg».proof.Proof.KernelIdeal.Body
import Idealize.ShloMosaic.Lib.Pipeline.Launch
import Idealize.ShloMosaic.Lib.Pipeline.Kit

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the pipeline's ghost state: every staging cell's owner at round 0 and a duty token for every
    transfer the pipeline issues. -/
def u₀ : UR sig nD τ := initOf (Pipeline.cells cfgs cellOf_inj) (Pipeline.launchToks cfgs cellOf_inj)

/-- The distinct buffers behind the seven windows' arrays are six: the activations', the four weights', the result's. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_arg4 ∗ Φ main_v0) :=
  Idealize.SL.BI.bigSep_eq_bigSepL_of_eq [main_arg0, main_arg1, main_arg2, main_arg3, main_arg4, main_v0] (by decide) (by decide) Φ

/-- The buffers behind the windows' arrays, each whole, make the proof data's arrays at entry: the activations' buffer
    split in two halves for windows 0 and 1, the four weights and the result each to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrs]
  iintro ⟨H0, H1, H2, H3, H4, H5⟩
  ihave H0' := (pointsTo_share (PosShare.mem_left_op_right fullShare)).1 $$ H0
  icases H0' with ⟨H0l, H0r⟩
  isplitl [H0l]
  · rw [(arr_whole0 0).set_eq_univ]; iexact H0l
  isplitl [H0r]
  · rw [(arr_whole0 1).set_eq_univ]; iexact H0r
  isplitl [H1]
  · rw [(arr_whole0 2).set_eq_univ]; iexact H1
  isplitl [H2]
  · rw [(arr_whole0 3).set_eq_univ]; iexact H2
  isplitl [H3]
  · rw [(arr_whole0 4).set_eq_univ]; iexact H3
  isplitl [H4]
  · rw [(arr_whole0 5).set_eq_univ]; iexact H4
  rw [(arr_whole0 6).set_eq_univ]; iexact H5

/-- The run. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0)
    (harr := arr_whole0) (hstage := stage_whole0) (howed := fun _ _ => rfl)
    (u₀ := u₀) (hu₀ := BI.Entails.refl _)
    (V := V m)
    (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- An argument array is an input of the pipeline: after the run it holds what it held. The result array holds what the
    write-backs of the last key tiles left. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨h c 6,
      (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5))⟩) (run_main m ρ)

/-- THE FRAME: every weakly fair execution terminates, nothing faulting, the five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_named m ρ)

end Cert.KernelIdeal.Attn

end
-- ==== Proof.KernelIdeal.Pieces.lean ====
/-
  What the three whole-body runs of the attention kernel leave in the two scratch buffers and in the output block,
  as arithmetic: each is a payload of the body applied to the blocks the run finds.

  At a first key tile the body stores the query projection of the query block into the first scratch and reads it
  back, stores zeros into the accumulator and reads them back, and then adds this key tile's term to what it read; so
  the projection and the zeros it has just stored appear inside the accumulator it leaves. At a middle key tile it adds
  the term to the accumulator it finds. At the last key tile it does the same and then reads the accumulator it has just
  stored and projects it into the output block; so the updated accumulator appears inside the output.
-/
import proofs.«120606_j7679401525969_1_alg».proof.Proof.KernelIdeal.Data
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 whole-buffer rectangle, however spelt. -/
private theorem hz2 : (![0, 0] : Fin 2 → Nat) = fun _ => 0 := funext fun a => by fin_cases a <;> rfl
/-- The zero offsets of a rank-3 whole-buffer rectangle. -/
private theorem hz3 : (![0, 0, 0] : Fin 3 → Nat) = fun _ => 0 := funext fun a => by fin_cases a <;> rfl

/-- A middle key tile: the accumulator found, plus this key tile's term over the projection found. -/
theorem saMid_eq (c : Dev nD) (t : Fin cfg0.N) (h0 : ¬condFirst (grid0.coords t)) (h1 : ¬condLast (grid0.coords t)) (sq sa : Vec F S512x256 .f32) :
    saMid m c t h0 h1 sq sa = k0_pay1 (k0_pay6 (xkB m c t) (wkB m c t) sq) (k0_pay7 (xkB m c t) (wvB m c t)) sa (constant S512x256 .f32 0x00000000#32) := by
  unfold saMid
  rw [View.read_writes_eq_canon _ _ _ (coverA_mid m c t h0 h1 sq sa)]
  unfold runMidAt kernelRunMid
  dsimp only
  sl_unfold_words
  rw [View.canon_unit_zero (S := S512x256) hz2]
  simp only [View.readAt_eq_ld, (hs1 t).read_unread, (hs3 t).read_unread, (hs4 t).read_unread, (Memref.isWhole_whole _).read_unread,
    View.ld_unit_zero (S := S512x256) hz2, View.ld_unit_zero (S := S256x256) hz2, View.ld_unit_zero (S := S1x512x256) hz3]

/-- The last key tile leaves the accumulator as a middle one does. -/
theorem saLast_eq (c : Dev nD) (t : Fin cfg0.N) (h0 : ¬condFirst (grid0.coords t)) (h1 : condLast (grid0.coords t)) (sq sa : Vec F S512x256 .f32) :
    saLast m c t h0 h1 sq sa = k0_pay1 (k0_pay6 (xkB m c t) (wkB m c t) sq) (k0_pay7 (xkB m c t) (wvB m c t)) sa (constant S512x256 .f32 0x00000000#32) := by
  unfold saLast
  rw [View.read_writes_eq_canon _ _ _ (coverA_last m c t h0 h1 sq sa)]
  unfold runLastAt kernelRunLast
  dsimp only
  sl_unfold_words
  rw [View.canon_unit_zero (S := S512x256) hz2]
  simp only [View.readAt_eq_ld, (hs1 t).read_unread, (hs3 t).read_unread, (hs4 t).read_unread, (Memref.isWhole_whole _).read_unread,
    View.ld_unit_zero (S := S512x256) hz2, View.ld_unit_zero (S := S256x256) hz2, View.ld_unit_zero (S := S1x512x256) hz3]

/-- The output block of the last key tile: the output projection of the accumulator just stored, which the body reads
    back whole. -/
theorem outLast_eq (c : Dev nD) (t : Fin cfg0.N) (h0 : ¬condFirst (grid0.coords t)) (h1 : condLast (grid0.coords t)) (sq sa : Vec F S512x256 .f32) :
    outLast m c t h0 h1 sq sa = k0_pay2 (k0_pay1 (k0_pay6 (xkB m c t) (wkB m c t) sq) (k0_pay7 (xkB m c t) (wvB m c t)) sa (constant S512x256 .f32 0x00000000#32)) (woB m c t) := by
  unfold outLast
  rw [View.read_writes_eq_canon _ _ _ (coverO_last m c t h0 h1 sq sa)]
  unfold runLastAt kernelRunLast
  dsimp only
  sl_unfold_words
  rw [View.canon_unit_zero (S := S1x512x256) hz3]
  simp only [View.readAt_eq_ld, (hs1 t).read_unread, (hs3 t).read_unread, (hs4 t).read_unread, (hs5 t).read_unread, (Memref.isWhole_whole _).read_unread,
    View.readCov_unit_zero (S := S512x256) _ hz2,
    View.ld_unit_zero (S := S512x256) hz2, View.ld_unit_zero (S := S256x256) hz2, View.ld_unit_zero (S := S1x512x256) hz3]

/-- The first key tile leaves the query block's projection in the first scratch. -/
theorem sqFirst_eq (c : Dev nD) (t : Fin cfg0.N) (h0 : condFirst (grid0.coords t)) (h1 : ¬condLast (grid0.coords t)) :
    sqFirst m c t h0 h1 = k0_pay3 (xqB m c t) (wqB m c t) := by
  unfold sqFirst
  rw [View.read_writes_eq_canon _ _ _ (coverQ_first m c t h0 h1)]
  unfold runFirstAt kernelRunFirst
  dsimp only
  sl_unfold_words
  rw [View.canon_unit_zero (S := S512x256) hz2]
  simp only [View.readAt_eq_ld, (hs0 t).read_unread, (hs2 t).read_unread,
    View.ld_unit_zero (S := S512x256) hz2, View.ld_unit_zero (S := S256x256) hz2, View.ld_unit_zero (S := S1x512x256) hz3]

/-- The accumulator after the first key tile: the zeros just stored (and read back), plus this key tile's term over the
    projection just stored (and read back). The later of the two stores covers the buffer. -/
theorem saFirst_eq (c : Dev nD) (t : Fin cfg0.N) (h0 : condFirst (grid0.coords t)) (h1 : ¬condLast (grid0.coords t)) :
    saFirst m c t h0 h1 = k0_pay1 (k0_pay6 (xkB m c t) (wkB m c t) (k0_pay3 (xqB m c t) (wqB m c t))) (k0_pay7 (xkB m c t) (wvB m c t)) (k0_pay4 (F := F)) (constant S512x256 .f32 0x00000000#32) := by
  unfold saFirst
  rw [View.read_writes_eq_canon _ _ _ (coverA_first m c t h0 h1)]
  unfold runFirstAt kernelRunFirst
  dsimp only
  sl_unfold_words
  rw [View.canon_cons_unit_zero (S := S512x256) hz2]
  simp only [View.readAt_eq_ld, (hs0 t).read_unread, (hs1 t).read_unread, (hs2 t).read_unread, (hs3 t).read_unread, (hs4 t).read_unread,
    View.readCov_unit_zero (S := S512x256) _ hz2,
    View.ld_unit_zero (S := S512x256) hz2, View.ld_unit_zero (S := S256x256) hz2, View.ld_unit_zero (S := S1x512x256) hz3]

end Cert.KernelIdeal.Attn

end
-- ==== Proof.KernelIdeal.Blocks.lean ====
/-
  The 4 x 8 x 8 grid decoded, and each window's block read at an index.

  A grid point t = 64·b + 8·i + j is batch b, query tile i, key tile j. The query window and the output window hold
  block (b, i, 0) of the [4, 4096, 256] array in blocks of [1, 512, 256]: row r of the block is row 512·i + r of batch b.
  The key window holds block (b, j, 0) of the same array: row u of the block is row 512·j + u of batch b. The four
  weight windows hold the whole [256, 256] arrays at every point. The output window's blocks at the last key tiles
  (j = 7) cover the whole output array: index (b, s, g) lies in the block of the point 64·b + 8·(s / 512) + 7.
-/
import proofs.«120606_j7679401525969_1_alg».proof.Proof.KernelIdeal.Data
import Idealize.ShloMosaic.Lib.ValueIdx
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid point decoded -/

/-- The batch of point `t`. -/
def bOf (t : Fin cfg0.N) : Fin 4 := ⟨t.val / 64, by have := t.isLt; have : cfg0.N = 256 := N_0; omega⟩
/-- Row `r` of point `t`'s query tile, as a row of the array. -/
def qRow (t : Fin cfg0.N) (r : Fin 512) : Fin 4096 := ⟨512 * (t.val / 8 % 8) + r.val, by omega⟩
/-- Row `u` of point `t`'s key tile, as a row of the array. -/
def kRow (t : Fin cfg0.N) (u : Fin 512) : Fin 4096 := ⟨512 * (t.val % 8) + u.val, by omega⟩

/-! ## The printed index maps over the grid -/

/-- The query window's block index at point `t` is (batch, query tile, 0). -/
theorem idx0 : ∀ t : Fin cfg0.N, win0_0.index t (0 : Fin 3) = t.val / 64 ∧ win0_0.index t (1 : Fin 3) = t.val / 8 % 8 ∧ win0_0.index t (2 : Fin 3) = 0 :=
  (by decide +kernel : ∀ t : Fin grid0.N, _)
/-- The key window's block index at point `t` is (batch, key tile, 0). -/
theorem idx1 : ∀ t : Fin cfg0.N, win0_1.index t (0 : Fin 3) = t.val / 64 ∧ win0_1.index t (1 : Fin 3) = t.val % 8 ∧ win0_1.index t (2 : Fin 3) = 0 :=
  (by decide +kernel : ∀ t : Fin grid0.N, _)
/-- The weight windows' block index is (0, 0) at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
/-- The output window's block index at point `t` is (batch, query tile, 0). -/
theorem idx6 : ∀ t : Fin cfg0.N, win0_6.index t (0 : Fin 3) = t.val / 64 ∧ win0_6.index t (1 : Fin 3) = t.val / 8 % 8 ∧ win0_6.index t (2 : Fin 3) = 0 :=
  (by decide +kernel : ∀ t : Fin grid0.N, _)

/-! ## A block read at an index -/

/-- Row `r`, column `e` of the query block at point `t` is the array's entry at (batch, query row, `e`). -/
theorem xqB_at (c : Dev nD) (t : Fin cfg0.N) (r : Fin 512) (e : Fin 256) :
    xqB m c t (ix3 (0 : Fin 1) r e) = V m c main_arg0 (ix3 (bOf t) (qRow t r) e) := by
  obtain ⟨e0, e1, e2⟩ := idx0 t
  show V m c main_arg0 (((cfg0.win 0).blk t).view.emb (ix3 (0 : Fin 1) r e)) = V m c main_arg0 (ix3 (bOf t) (qRow t r) e)
  congr 1
  funext a; apply Fin.ext
  match a with
  | ⟨0, _⟩ => show win0_0.index t (0 : Fin 3) * 1 + 1 * 0 = t.val / 64; omega
  | ⟨1, _⟩ => show win0_0.index t (1 : Fin 3) * 512 + 1 * r.val = 512 * (t.val / 8 % 8) + r.val; omega
  | ⟨2, _⟩ => show win0_0.index t (2 : Fin 3) * 256 + 1 * e.val = e.val; omega

/-- Row `u`, column `e` of the key block at point `t` is the array's entry at (batch, key row, `e`). -/
theorem xkB_at (c : Dev nD) (t : Fin cfg0.N) (u : Fin 512) (e : Fin 256) :
    xkB m c t (ix3 (0 : Fin 1) u e) = V m c main_arg0 (ix3 (bOf t) (kRow t u) e) := by
  obtain ⟨e0, e1, e2⟩ := idx1 t
  show V m c main_arg0 (((cfg0.win 1).blk t).view.emb (ix3 (0 : Fin 1) u e)) = V m c main_arg0 (ix3 (bOf t) (kRow t u) e)
  congr 1
  funext a; apply Fin.ext
  match a with
  | ⟨0, _⟩ => show win0_1.index t (0 : Fin 3) * 1 + 1 * 0 = t.val / 64; omega
  | ⟨1, _⟩ => show win0_1.index t (1 : Fin 3) * 512 + 1 * u.val = 512 * (t.val % 8) + u.val; omega
  | ⟨2, _⟩ => show win0_1.index t (2 : Fin 3) * 256 + 1 * e.val = e.val; omega

/-- The query projection's weight block is the whole weight at every point. -/
theorem wqB_eq (c : Dev nD) (t : Fin cfg0.N) : wqB m c t = V m c main_arg1 := by
  obtain ⟨e0, e1⟩ := idx2 t
  funext y
  show V m c main_arg1 (((cfg0.win 2).blk t).view.emb y) = V m c main_arg1 y
  congr 1
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega
/-- The key projection's weight block is the whole weight at every point. -/
theorem wkB_eq (c : Dev nD) (t : Fin cfg0.N) : wkB m c t = V m c main_arg2 := by
  obtain ⟨e0, e1⟩ := idx3 t
  funext y
  show V m c main_arg2 (((cfg0.win 3).blk t).view.emb y) = V m c main_arg2 y
  congr 1
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega
/-- The value projection's weight block is the whole weight at every point. -/
theorem wvB_eq (c : Dev nD) (t : Fin cfg0.N) : wvB m c t = V m c main_arg3 := by
  obtain ⟨e0, e1⟩ := idx4 t
  funext y
  show V m c main_arg3 (((cfg0.win 4).blk t).view.emb y) = V m c main_arg3 y
  congr 1
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega
/-- The output projection's weight block is the whole weight at every point. -/
theorem woB_eq (c : Dev nD) (t : Fin cfg0.N) : woB m c t = V m c main_arg4 := by
  obtain ⟨e0, e1⟩ := idx5 t
  funext y
  show V m c main_arg4 (((cfg0.win 5).blk t).view.emb y) = V m c main_arg4 y
  congr 1
  funext a; apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Row `r`, column `g` of the output block at point `t`, read off any contents `G` of the output array, is `G` at
    (batch, query row, `g`). -/
theorem outBlk_at (c : Dev nD) (t : Fin cfg0.N) (G : Buf (Elt F) ((c : Thread nD τ).loc main_v0)) (r : Fin 512) (g : Fin 256) :
    ((cfg0.win 6).blk t).view.read (Elt F) G (ix3 (0 : Fin 1) r g) = G (ix3 (bOf t) (qRow t r) g) := by
  obtain ⟨e0, e1, e2⟩ := idx6 t
  show G (((cfg0.win 6).blk t).view.emb (ix3 (0 : Fin 1) r g)) = G (ix3 (bOf t) (qRow t r) g)
  congr 1
  funext a; apply Fin.ext
  match a with
  | ⟨0, _⟩ => show win0_6.index t (0 : Fin 3) * 1 + 1 * 0 = t.val / 64; omega
  | ⟨1, _⟩ => show win0_6.index t (1 : Fin 3) * 512 + 1 * r.val = 512 * (t.val / 8 % 8) + r.val; omega
  | ⟨2, _⟩ => show win0_6.index t (2 : Fin 3) * 256 + 1 * g.val = g.val; omega

/-! ## The output's blocks cover the array -/

/-- An index of the output array is in point `t`'s block iff each coordinate is in the block's range on its axis. -/
theorem mem_blk6 (t : Fin cfg0.N) (i : S4x4096x256.Idx) :
    i ∈ ((cfg0.win 6).blk t).view.set ↔ ∀ a : Fin 3, win0_6.index t a * S1x512x256.size a ≤ (i a).val ∧ (i a).val < win0_6.index t a * S1x512x256.size a + S1x512x256.size a := by
  show i ∈ ((View.whole main_v0).slice (win0_6.rect t)).set ↔ _
  rw [View.set_slice_whole, Rect.mem_set_unit]
  exact Iff.rfl

/-- The same in the decoded coordinates: the batch is the point's, the row is in the point's query tile. -/
theorem mem_blk6_iff (t : Fin cfg0.N) (i : S4x4096x256.Idx) :
    i ∈ ((cfg0.win 6).blk t).view.set ↔ (i 0).val = t.val / 64 ∧ 512 * (t.val / 8 % 8) ≤ (i 1).val ∧ (i 1).val < 512 * (t.val / 8 % 8) + 512 := by
  obtain ⟨e0, e1, e2⟩ := idx6 t
  have hi2 : (i 2).val < 256 := (i 2).isLt
  rw [mem_blk6]
  constructor
  · intro h
    have b0 : win0_6.index t (0 : Fin 3) * 1 ≤ (i 0).val ∧ (i 0).val < win0_6.index t (0 : Fin 3) * 1 + 1 := h 0
    have b1 : win0_6.index t (1 : Fin 3) * 512 ≤ (i 1).val ∧ (i 1).val < win0_6.index t (1 : Fin 3) * 512 + 512 := h 1
    omega
  · intro h a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 512 ≤ (i 1).val ∧ (i 1).val < win0_6.index t (1 : Fin 3) * 512 + 512; omega
    | ⟨2, _⟩ => show win0_6.index t (2 : Fin 3) * 256 ≤ (i 2).val ∧ (i 2).val < win0_6.index t (2 : Fin 3) * 256 + 256; omega

/-- The last key tile's point of the query tile that holds row `s` of batch `b`. -/
def lastPoint (b : Fin 4) (s : Fin 4096) : Fin cfg0.N :=
  ⟨64 * b.val + 8 * (s.val / 512) + 7, by have : cfg0.N = 256 := N_0; omega⟩

theorem lastPoint_mod (b : Fin 4) (s : Fin 4096) : (lastPoint b s).val % 8 = 7 := by
  show (64 * b.val + 8 * (s.val / 512) + 7) % 8 = 7; omega
theorem bOf_lastPoint (b : Fin 4) (s : Fin 4096) : bOf (lastPoint b s) = b := by
  apply Fin.ext; show (64 * b.val + 8 * (s.val / 512) + 7) / 64 = b.val; omega
theorem qRow_lastPoint (b : Fin 4) (s : Fin 4096) :
    qRow (lastPoint b s) ⟨s.val % 512, Nat.mod_lt _ (by omega)⟩ = s := by
  apply Fin.ext; show 512 * ((64 * b.val + 8 * (s.val / 512) + 7) / 8 % 8) + s.val % 512 = s.val; omega

/-- Every index of the output array is in the block some last key tile writes back. -/
theorem cover6 (c : Dev nD) : ∀ i : S4x4096x256.Idx, ∃ t : Fin cfg0.N, (cfg0.win 6).flush t = true ∧ i ∈ ((cfg0.win 6).blk t).view.set := by
  intro i
  have hi0 : (i 0).val < 4 := (i 0).isLt
  have hi1 : (i 1).val < 4096 := (i 1).isLt
  have ht : (lastPoint (i 0) (i 1)).val = 64 * (i 0).val + 8 * ((i 1).val / 512) + 7 := rfl
  refine ⟨lastPoint (i 0) (i 1), (flush0_6 _).mpr (lastPoint_mod _ _), ?_⟩
  rw [mem_blk6_iff]
  omega

/-! ## Arithmetic of the decoding -/

/-- A point is its batch, query tile and key tile. -/
theorem point_eq (t : Fin cfg0.N) : t.val = 64 * (bOf t).val + 8 * (t.val / 8 % 8) + t.val % 8 := by
  have := t.isLt; have : cfg0.N = 256 := N_0
  show t.val = 64 * (t.val / 64) + 8 * (t.val / 8 % 8) + t.val % 8; omega

/-- An index in the block of a point is (batch, query row, column) of that point for the row's offset in the tile. -/
theorem eq_of_mem_blk6 (t : Fin cfg0.N) (i : S4x4096x256.Idx) (hi : i ∈ ((cfg0.win 6).blk t).view.set) :
    i = ix3 (bOf t) (qRow t ⟨(i 1).val % 512, Nat.mod_lt _ (by omega)⟩) (i 2) := by
  rw [mem_blk6_iff] at hi
  funext a; apply Fin.ext
  match a with
  | ⟨0, _⟩ => show (i 0).val = t.val / 64; omega
  | ⟨1, _⟩ => show (i 1).val = 512 * (t.val / 8 % 8) + (i 1).val % 512; omega
  | ⟨2, _⟩ => rfl

/-- Two points of one query tile have the same batch and the same query rows. -/
theorem bOf_congr (t t' : Fin cfg0.N) (h : t.val / 8 = t'.val / 8) : bOf t = bOf t' := by
  apply Fin.ext; show t.val / 64 = t'.val / 64; omega
theorem qRow_congr (t t' : Fin cfg0.N) (h : t.val / 8 = t'.val / 8) (r : Fin 512) : qRow t r = qRow t' r := by
  apply Fin.ext; show 512 * (t.val / 8 % 8) + r.val = 512 * (t'.val / 8 % 8) + r.val; rw [h]

/-- The point before a point that is not a first key tile is in the same query tile, one key tile earlier. -/
theorem pred_div (n : ℕ) (h : ¬(n + 1) % 8 = 0) : n / 8 = (n + 1) / 8 := by omega
theorem pred_mod (n : ℕ) (h : ¬(n + 1) % 8 = 0) : n % 8 + 1 = (n + 1) % 8 := by omega

end Cert.KernelIdeal.Attn

end
-- ==== Proof.Spec.lean ====
/-
  The mathematics of the kernel, with no program in sight. Over the extended reals, for x : [4, 4096, 256] and four
  256 x 256 weights stored [out, in], with c₁ and c₂ the two scale constants (the binary values of the single-precision
  0.01 and 0.1):

    proj x W c     (b, s, f) = (Σ_e x[b,s,e] · W[f,e]) · c              the three projections q, k (c = c₁) and v (c = c₂)
    score          (b, s, t) = (Σ_f q[b,s,f] · k[b,t,f]) · c₁
    act a                    = a · a · c₂ + a · c₂                        the quadratic activation
    mix            (b, s, f) = (Σ_t act (score b s t) · v[b,t,f]) · c₁    over all 4096 keys
    result         (b, s, g) = (Σ_f mix[b,s,f] · Wo[g,f]) · c₂

  The kernel walks the 4096 keys in 8 tiles of 512 and scales each tile's partial sum by c₁ before adding it to an
  accumulator that starts at zero: `tileTerm` is one tile's contribution, `accUpTo n` the accumulator after tiles 0..n.
  The one law joining the two arrangements is `mix_eq_accUpTo`: a sum over 4096 keys is the sum over the 8 tiles of the
  tiles' sums (addition on the extended reals is commutative and associative), and scaling by a NONNEGATIVE REAL
  distributes over any extended-real sum — which is all that is asked of c₁.
-/
import Idealize.ShloMosaic.PureOps.Ideal
import Idealize.ShloMosaic.PureOps.Ideal.Laws
import Idealize.ShloMosaic.Lib.ValueIdx
import Mathlib.Data.EReal.Operations
import Mathlib.Algebra.BigOperators.Fin
import Mathlib.Logic.Equiv.Fin.Basic

noncomputable section

open scoped BigOperators

namespace Attn

open Idealize.ShloMosaic Idealize.ShloMosaic.ValueIdx

/-- The activations' shape, [4, 4096, 256], and the weights', [256, 256]. -/
abbrev SX : Shape := ⟨3, ![4, 4096, 256]⟩
abbrev SW : Shape := ⟨2, ![256, 256]⟩

/-- The two scale constants: the binary values of single-precision 0.01 and 0.1. -/
def c₁ : EReal := Ideal.ofBits .f32 0x3C23D70A#32
def c₂ : EReal := Ideal.ofBits .f32 0x3DCCCCCD#32

/-- One projection of the activations by a weight stored [out, in], scaled by `c`. -/
def proj (x : SX.Idx → EReal) (w : SW.Idx → EReal) (c : EReal) (b : Fin 4) (s : Fin 4096) (f : Fin 256) : EReal :=
  (∑ e : Fin 256, x (ix3 b s e) * w (ix2 f e)) * c

/-- The attention score of query row `s` against key row `t`. -/
def score (x : SX.Idx → EReal) (wq wk : SW.Idx → EReal) (b : Fin 4) (s t : Fin 4096) : EReal :=
  (∑ f : Fin 256, proj x wq c₁ b s f * proj x wk c₁ b t f) * c₁

/-- The quadratic activation that stands where a softmax would. -/
def act (a : EReal) : EReal := a * a * c₂ + a * c₂

/-- The activated scores applied to the values, over all keys. -/
def mix (x : SX.Idx → EReal) (wq wk wv : SW.Idx → EReal) (b : Fin 4) (s : Fin 4096) (f : Fin 256) : EReal :=
  (∑ t : Fin 4096, act (score x wq wk b s t) * proj x wv c₂ b t f) * c₁

/-- The whole result, index by index. -/
def result (x : SX.Idx → EReal) (wq wk wv wo : SW.Idx → EReal) : SX.Idx → EReal := fun i =>
  (∑ f : Fin 256, mix x wq wk wv (i 0) (i 1) f * wo (ix2 (i 2) f)) * c₂

/-- Key row `r` of key tile `j`. -/
def keyRow (j : Fin 8) (r : Fin 512) : Fin 4096 := ⟨512 * j.val + r.val, by omega⟩

/-- Key tile `j`'s contribution to `mix`, scaled as the kernel scales it (zero past the eighth tile). -/
def tileTerm (x : SX.Idx → EReal) (wq wk wv : SW.Idx → EReal) (b : Fin 4) (s : Fin 4096) (f : Fin 256) (j : ℕ) : EReal :=
  if h : j < 8 then (∑ r : Fin 512, act (score x wq wk b s (keyRow ⟨j, h⟩ r)) * proj x wv c₂ b (keyRow ⟨j, h⟩ r) f) * c₁ else 0

/-- The accumulator after key tiles `0 .. n`. -/
def accUpTo (x : SX.Idx → EReal) (wq wk wv : SW.Idx → EReal) (b : Fin 4) (s : Fin 4096) (f : Fin 256) (n : ℕ) : EReal :=
  ∑ j ∈ Finset.range (n + 1), tileTerm x wq wk wv b s f j

theorem accUpTo_zero (x : SX.Idx → EReal) (wq wk wv : SW.Idx → EReal) (b : Fin 4) (s : Fin 4096) (f : Fin 256) :
    accUpTo x wq wk wv b s f 0 = tileTerm x wq wk wv b s f 0 := by
  unfold accUpTo; simp

theorem accUpTo_succ (x : SX.Idx → EReal) (wq wk wv : SW.Idx → EReal) (b : Fin 4) (s : Fin 4096) (f : Fin 256) (n : ℕ) :
    accUpTo x wq wk wv b s f (n + 1) = accUpTo x wq wk wv b s f n + tileTerm x wq wk wv b s f (n + 1) := by
  unfold accUpTo; rw [Finset.sum_range_succ]

/-- The scale constant 0.01's binary value is a nonnegative real. -/
theorem c₁_nonneg_real : ∃ r : ℝ, 0 ≤ r ∧ c₁ = (r : EReal) := by
  refine ⟨(10737418 : ℝ) * (2 : ℝ) ^ (-30 : Int), by positivity, ?_⟩
  unfold c₁
  simp [Ideal.ofBits, Ideal.ieee, -EReal.coe_mul]

/-- Scaling by a nonnegative real distributes over a finite sum of extended reals. -/
theorem sum_mul_of_nonneg_real {ι : Type} (S : Finset ι) (y : ι → EReal) (r : ℝ) (hr : 0 ≤ r) :
    (∑ i ∈ S, y i) * (r : EReal) = ∑ i ∈ S, y i * (r : EReal) := by
  classical
  have h0 : (0 : EReal) ≤ (r : EReal) := by exact_mod_cast hr
  induction S using Finset.induction_on with
  | empty => simp
  | insert a S ha ih =>
    rw [Finset.sum_insert ha, Finset.sum_insert ha,
      EReal.right_distrib_of_nonneg_of_ne_top h0 (EReal.coe_ne_top r), ih]

/-- A sum over the 4096 keys is the sum over the 8 tiles of the tiles' sums. -/
theorem sum_keys_eq_sum_tiles (y : Fin 4096 → EReal) :
    ∑ t : Fin 4096, y t = ∑ j : Fin 8, ∑ r : Fin 512, y (keyRow j r) := by
  rw [← Fintype.sum_prod_type' (f := fun j r => y (keyRow j r))]
  refine (Fintype.sum_equiv (finProdFinEquiv (m := 8) (n := 512)) _ _ ?_).symm
  rintro ⟨j, r⟩
  congr 1
  apply Fin.ext
  simp [keyRow, finProdFinEquiv]
  omega

/-- THE LAW: all keys at once, or tile by tile with each tile's sum scaled before it is added. -/
theorem mix_eq_accUpTo (x : SX.Idx → EReal) (wq wk wv : SW.Idx → EReal) (b : Fin 4) (s : Fin 4096) (f : Fin 256) :
    mix x wq wk wv b s f = accUpTo x wq wk wv b s f 7 := by
  obtain ⟨r, hr, hc⟩ := c₁_nonneg_real
  unfold mix accUpTo
  rw [sum_keys_eq_sum_tiles, hc, sum_mul_of_nonneg_real _ _ r hr, ← Fin.sum_univ_eq_sum_range (fun j => tileTerm x wq wk wv b s f j) 8]
  refine Finset.sum_congr rfl ?_
  intro j _
  unfold tileTerm
  rw [dif_pos j.isLt, hc]

end Attn

end
-- ==== Proof.PayloadsAt.lean ====
/-
  The kernel body's payloads read at an index, at the ideal instance (every float an extended real; a change of
  float format the identity; a matrix product into a zero accumulator a plain finite sum).

  Each payload is a short chain of pure operations: a unit axis dropped or added, a format change, a matrix
  transposed, a matrix product whose dimension numbers contract the left operand's columns against the right
  operand's rows, a scalar constant broadcast, an elementwise product or sum. Read at one index (r, f) each of them
  is one element, or one finite sum, of its operands. First, per set of dimension numbers, the product into a zero
  accumulator at (a, b) is Σ_k l[a,k] · r[k,b]; composed with the transpose that precedes each right operand the
  sum runs over the SECOND coordinate of both operands, Σ_e x[r,e] · w[f,e], which is the form the specification
  uses for a weight stored [out, in]. The six payload lemmas are then compositions of these readings.
-/
import proofs.«120606_j7679401525969_1_alg».proof.Proof.Gen.KernelIdeal.Skeleton
import proofs.«120606_j7679401525969_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.AttnValue

open Cert.KernelIdeal Cert.KernelIdeal.Gen Idealize.ShloMosaic Idealize.ShloMosaic.ValueIdx

/-! ## The product [512,256] · [256,256] → [512,256] into a zero accumulator -/

theorem lhs_dot_S512x256_S256x256_S512x256_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_dot_S512x256_S256x256_S512x256_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_dot_S512x256_S256x256_S512x256_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_dot_S512x256_S256x256_S512x256_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product of `l : [512,256]` and `r : [256,256]` into zero, at `(a, b)`, is `Σ_k l[a,k] · r[k,b]`. -/
theorem matmul_512x256_256x256_at {φ₁ φ₂ : FTy} (l : FVec Ideal S512x256 φ₁) (r : FVec Ideal S256x256 φ₂) (a : Fin 512) (b : Fin 256) :
    matmul dot_S512x256_S256x256_S512x256_1_0_0_1_n_n none l r (constant (F := Ideal) S512x256 .f32 0x00000000#32) (ix2 a b)
      = ∑ k : Fin 256, l (ix2 a k) * r (ix2 k b) := by
  refine (Ideal.matmul_constant_zero_apply dot_S512x256_S256x256_S512x256_1_0_0_1_n_n none l r (ix2 a b)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 a b) ((contrEquiv1 dot_S512x256_S256x256_S512x256_1_0_0_1_n_n 256 rfl rfl).symm k) = ix2 a k := funext fun c => Fin.ext (by
    match c with
    | ⟨0, _⟩ => exact lhs_dot_S512x256_S256x256_S512x256_0 _ _
    | ⟨1, _⟩ => exact (lhs_dot_S512x256_S256x256_S512x256_1 _ _).trans hk)
  have er : dot_S512x256_S256x256_S512x256_1_0_0_1_n_n.rhsIdx (ix2 a b) ((contrEquiv1 dot_S512x256_S256x256_S512x256_1_0_0_1_n_n 256 rfl rfl).symm k) = ix2 k b := funext fun c => Fin.ext (by
    match c with
    | ⟨0, _⟩ => exact (rhs_dot_S512x256_S256x256_S512x256_0 _ _).trans hk
    | ⟨1, _⟩ => exact rhs_dot_S512x256_S256x256_S512x256_1 _ _)
  rw [el, er]

/-! ## The product [512,256] · [256,512] → [512,512] into a zero accumulator -/

theorem lhs_dot_S512x256_S256x512_S512x512_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_dot_S512x256_S256x512_S512x512_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_dot_S512x256_S256x512_S512x512_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_dot_S512x256_S256x512_S512x512_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The product of `l : [512,256]` and `r : [256,512]` into zero, at `(a, b)`, is `Σ_k l[a,k] · r[k,b]`. -/
theorem matmul_512x256_256x512_at {φ₁ φ₂ : FTy} (l : FVec Ideal S512x256 φ₁) (r : FVec Ideal S256x512 φ₂) (a : Fin 512) (b : Fin 512) :
    matmul dot_S512x256_S256x512_S512x512_1_0_0_1_n_n none l r (constant (F := Ideal) S512x512 .f32 0x00000000#32) (ix2 a b)
      = ∑ k : Fin 256, l (ix2 a k) * r (ix2 k b) := by
  refine (Ideal.matmul_constant_zero_apply dot_S512x256_S256x512_S512x512_1_0_0_1_n_n none l r (ix2 a b)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 a b) ((contrEquiv1 dot_S512x256_S256x512_S512x512_1_0_0_1_n_n 256 rfl rfl).symm k) = ix2 a k := funext fun c => Fin.ext (by
    match c with
    | ⟨0, _⟩ => exact lhs_dot_S512x256_S256x512_S512x512_0 _ _
    | ⟨1, _⟩ => exact (lhs_dot_S512x256_S256x512_S512x512_1 _ _).trans hk)
  have er : dot_S512x256_S256x512_S512x512_1_0_0_1_n_n.rhsIdx (ix2 a b) ((contrEquiv1 dot_S512x256_S256x512_S512x512_1_0_0_1_n_n 256 rfl rfl).symm k) = ix2 k b := funext fun c => Fin.ext (by
    match c with
    | ⟨0, _⟩ => exact (rhs_dot_S512x256_S256x512_S512x512_0 _ _).trans hk
    | ⟨1, _⟩ => exact rhs_dot_S512x256_S256x512_S512x512_1 _ _)
  rw [el, er]

/-! ## The product [512,512] · [512,256] → [512,256] into a zero accumulator -/

theorem lhs_dot_S512x512_S512x256_S512x256_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_dot_S512x512_S512x256_S512x256_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_dot_S512x512_S512x256_S512x256_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_dot_S512x512_S512x256_S512x256_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The product of `l : [512,512]` and `r : [512,256]` into zero, at `(a, b)`, is `Σ_k l[a,k] · r[k,b]`. -/
theorem matmul_512x512_512x256_at {φ₁ φ₂ : FTy} (l : FVec Ideal S512x512 φ₁) (r : FVec Ideal S512x256 φ₂) (a : Fin 512) (b : Fin 256) :
    matmul dot_S512x512_S512x256_S512x256_1_0_0_1_n_n none l r (constant (F := Ideal) S512x256 .f32 0x00000000#32) (ix2 a b)
      = ∑ k : Fin 512, l (ix2 a k) * r (ix2 k b) := by
  refine (Ideal.matmul_constant_zero_apply dot_S512x512_S512x256_S512x256_1_0_0_1_n_n none l r (ix2 a b)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 a b) ((contrEquiv1 dot_S512x512_S512x256_S512x256_1_0_0_1_n_n 512 rfl rfl).symm k) = ix2 a k := funext fun c => Fin.ext (by
    match c with
    | ⟨0, _⟩ => exact lhs_dot_S512x512_S512x256_S512x256_0 _ _
    | ⟨1, _⟩ => exact (lhs_dot_S512x512_S512x256_S512x256_1 _ _).trans hk)
  have er : dot_S512x512_S512x256_S512x256_1_0_0_1_n_n.rhsIdx (ix2 a b) ((contrEquiv1 dot_S512x512_S512x256_S512x256_1_0_0_1_n_n 512 rfl rfl).symm k) = ix2 k b := funext fun c => Fin.ext (by
    match c with
    | ⟨0, _⟩ => exact (rhs_dot_S512x512_S512x256_S512x256_0 _ _).trans hk
    | ⟨1, _⟩ => exact rhs_dot_S512x512_S512x256_S512x256_1 _ _)
  rw [el, er]

/-! ## Compositions: a projection by a weight stored [out, in], and the activations with their unit axis dropped -/

/-- Activations `[512,256]` against the transpose of a weight `[256,256]` stored `[out, in]` (its format changed first,
    which changes nothing here): at `(r, f)` the sum runs over the second coordinate of both, `Σ_e x[r,e] · w[f,e]`. -/
theorem proj_at {φ : FTy} (x : FVec Ideal S512x256 φ) (w : Vec Ideal S256x256 .f32)
    (hb : FTy.bits .bf16 < FTy.bits .f32) (ht : S256x256.Transposes [1, 0] S256x256) (r : Fin 512) (f : Fin 256) :
    matmul dot_S512x256_S256x256_S512x256_1_0_0_1_n_n none x
        (transpose S256x256 [1, 0] (truncf (F := Ideal) .bf16 w hb) ht) (constant (F := Ideal) S512x256 .f32 0x00000000#32) (ix2 r f)
      = ∑ e : Fin 256, x (ix2 r e) * w (ix2 f e) := by
  rw [matmul_512x256_256x256_at]
  refine Finset.sum_congr rfl fun e _ => ?_
  rw [transpose_ix2_apply, truncf_apply]

/-- The activations `[1,512,256]` with the unit axis dropped and the format changed, at `(u, e)`. -/
theorem pay5_at (xk : Vec Ideal S1x512x256 .f32) (u : Fin 512) (e : Fin 256) :
    k0_pay5 (F := Ideal) xk (ix2 u e) = xk (ix3 (0 : Fin 1) u e) := by
  unfold k0_pay5
  rw [truncf_apply, shapeCast_1ab_ab_apply]

/-! ## The six payloads at an index -/

theorem pay3_at (xq : Vec Ideal S1x512x256 .f32) (wq : Vec Ideal S256x256 .f32) (r : Fin 512) (f : Fin 256) :
    k0_pay3 (F := Ideal) xq wq (ix2 r f) = (∑ e : Fin 256, xq (ix3 (0 : Fin 1) r e) * wq (ix2 f e)) * Attn.c₁ := by
  unfold k0_pay3
  rw [shapeCast_self, mulf_apply, proj_at, broadcast_apply]
  unfold Attn.c₁
  refine congrArg (fun t => t * _) (Finset.sum_congr rfl fun e _ => ?_)
  rw [truncf_apply, shapeCast_1ab_ab_apply]

theorem pay4_at (r : Fin 512) (f : Fin 256) : k0_pay4 (F := Ideal) (ix2 r f) = 0 := by
  unfold k0_pay4
  rw [shapeCast_self, broadcast_apply]
  exact Ideal.ofBits_zero_f32

theorem pay7_at (xk : Vec Ideal S1x512x256 .f32) (wv : Vec Ideal S256x256 .f32) (u : Fin 512) (f : Fin 256) :
    k0_pay7 (F := Ideal) xk wv (ix2 u f) = (∑ e : Fin 256, xk (ix3 (0 : Fin 1) u e) * wv (ix2 f e)) * Attn.c₂ := by
  unfold k0_pay7
  rw [truncf_apply, mulf_apply, proj_at, broadcast_apply]
  unfold Attn.c₂
  refine congrArg (fun t => t * _) (Finset.sum_congr rfl fun e _ => ?_)
  rw [pay5_at]

theorem pay2_at (sa : Vec Ideal S512x256 .f32) (wo : Vec Ideal S256x256 .f32) (r : Fin 512) (g : Fin 256) :
    k0_pay2 (F := Ideal) sa wo (ix3 (0 : Fin 1) r g) = (∑ f : Fin 256, sa (ix2 r f) * wo (ix2 g f)) * Attn.c₂ := by
  unfold k0_pay2
  rw [shapeCast_ab_1ab_apply, mulf_apply, proj_at, broadcast_apply]
  unfold Attn.c₂
  refine congrArg (fun t => t * _) (Finset.sum_congr rfl fun f _ => ?_)
  rw [truncf_apply]

theorem pay1_at (p : FVec Ideal S512x512 .bf16) (v : FVec Ideal S512x256 .bf16) (sa : Vec Ideal S512x256 .f32) (r : Fin 512) (f : Fin 256) :
    k0_pay1 (F := Ideal) p v sa (constant S512x256 .f32 0x00000000#32) (ix2 r f) = sa (ix2 r f) + (∑ u : Fin 512, p (ix2 r u) * v (ix2 u f)) * Attn.c₁ := by
  unfold k0_pay1
  rw [shapeCast_self, addf_apply, mulf_apply, matmul_512x512_512x256_at, broadcast_apply]
  unfold Attn.c₁
  rfl

/-- Queries `[512,256]` against the transpose of keys `[512,256]` (their format changed first): at `(r, u)` the sum runs
    over the second coordinate of both, `Σ_f q[r,f] · k[u,f]`. -/
theorem scores_at {φ : FTy} (q : FVec Ideal S512x256 φ) (kk : Vec Ideal S512x256 .f32)
    (hb : FTy.bits .bf16 < FTy.bits .f32) (ht : S512x256.Transposes [1, 0] S256x512) (r u : Fin 512) :
    matmul dot_S512x256_S256x512_S512x512_1_0_0_1_n_n none q
        (transpose S256x512 [1, 0] (truncf (F := Ideal) .bf16 kk hb) ht) (constant (F := Ideal) S512x512 .f32 0x00000000#32) (ix2 r u)
      = ∑ f : Fin 256, q (ix2 r f) * kk (ix2 u f) := by
  rw [matmul_512x256_256x512_at]
  refine Finset.sum_congr rfl fun f _ => ?_
  rw [transpose_ix2_apply, truncf_apply]

theorem pay6_at (xk : Vec Ideal S1x512x256 .f32) (wk : Vec Ideal S256x256 .f32) (sq : Vec Ideal S512x256 .f32) (r u : Fin 512) :
    k0_pay6 (F := Ideal) xk wk sq (ix2 r u)
      = Attn.act ((∑ f : Fin 256, sq (ix2 r f) * ((∑ e : Fin 256, xk (ix3 (0 : Fin 1) u e) * wk (ix2 f e)) * Attn.c₁)) * Attn.c₁) := by
  unfold k0_pay6
  simp only [truncf_apply, addf_apply, mulf_apply, broadcast_apply]
  rw [scores_at]
  have hsum : (∑ f : Fin 256, truncf (F := Ideal) .bf16 sq bitsLt_bf16_f32 (ix2 r f)
        * mulf (matmul dot_S512x256_S256x256_S512x256_1_0_0_1_n_n none (k0_pay5 (F := Ideal) xk)
              (transpose S256x256 [1, 0] (truncf (F := Ideal) .bf16 wk bitsLt_bf16_f32) transposes_S256x256_p1_0_S256x256)
              (constant (F := Ideal) S512x256 .f32 0x00000000#32))
            (broadcast S512x256 (Scalar.ofBits (F := Ideal) .f32 0x3C23D70A#32)) (ix2 u f))
      = ∑ f : Fin 256, sq (ix2 r f) * ((∑ e : Fin 256, xk (ix3 (0 : Fin 1) u e) * wk (ix2 f e)) * Attn.c₁) := by
    refine Finset.sum_congr rfl fun f _ => ?_
    rw [truncf_apply, mulf_apply, proj_at, broadcast_apply]
    unfold Attn.c₁
    refine congrArg (fun t => sq (ix2 r f) * (t * _)) (Finset.sum_congr rfl fun e _ => ?_)
    rw [pay5_at]
  rw [hsum]
  unfold Attn.act Attn.c₁ Attn.c₂
  rfl

end Cert.KernelIdeal.AttnValue

end
-- ==== Proof.TileStep.lean ====
/-
  One tile of the kernel body against the specification.

  The body's blocks are taken as abstract vectors tied to the whole arrays by hypotheses: a query block holds rows
  `rowQ r` of batch `b` of the activations, a key block holds the rows `keyRow j u` of key tile `j`, a weight block is
  the whole weight. Under those hypotheses the payloads, read at an index, are the specification's functions:
  the query projection is `proj` with the scale c₁; one accumulation step adds key tile `j`'s `tileTerm` to whatever
  the accumulator held (the activated score of query row `rowQ r` against key row `keyRow j u`, times the value
  projection of that key row, summed over the tile's 512 rows and scaled by c₁); the first step, into the zeroed
  accumulator, gives `accUpTo … 0`; and the output projection of an accumulator that holds `accUpTo … 7` is the
  specification's `result`, by the law that the sum over all keys is the sum over the eight tiles.
  No distributivity is used: each step matches sums term by term.
-/
import proofs.«120606_j7679401525969_1_alg».proof.Proof.PayloadsAt

noncomputable section

open scoped BigOperators

namespace Cert.KernelIdeal.AttnValue

open Cert.KernelIdeal Cert.KernelIdeal.Gen Idealize.ShloMosaic Idealize.ShloMosaic.ValueIdx

variable (X : Attn.SX.Idx → EReal) (Wq Wk Wv Wo : Attn.SW.Idx → EReal) (b : Fin 4) (rowQ : Fin 512 → Fin 4096) (j : Fin 8)

/-- The query projection of a block that holds rows `rowQ r` of batch `b`. -/
theorem proj_tile (xq : Vec Ideal S1x512x256 .f32) (wq : Vec Ideal S256x256 .f32)
    (hq : ∀ (r : Fin 512) (e : Fin 256), xq (ix3 (0 : Fin 1) r e) = X (ix3 b (rowQ r) e)) (hw : wq = Wq) (r : Fin 512) (f : Fin 256) :
    k0_pay3 (F := Ideal) xq wq (ix2 r f) = Attn.proj X Wq Attn.c₁ b (rowQ r) f := by
  subst hw
  rw [pay3_at]
  unfold Attn.proj
  refine congrArg (fun t => t * Attn.c₁) (Finset.sum_congr rfl fun e _ => ?_)
  rw [hq]

/-- One accumulation step over key tile `j`: the accumulator gains that tile's term. -/
theorem step_tile (xk : Vec Ideal S1x512x256 .f32) (wk wv : Vec Ideal S256x256 .f32) (sq sa : Vec Ideal S512x256 .f32)
    (hk : ∀ (u : Fin 512) (e : Fin 256), xk (ix3 (0 : Fin 1) u e) = X (ix3 b (Attn.keyRow j u) e)) (hwk : wk = Wk) (hwv : wv = Wv)
    (hsq : ∀ (r : Fin 512) (f : Fin 256), sq (ix2 r f) = Attn.proj X Wq Attn.c₁ b (rowQ r) f) (r : Fin 512) (f : Fin 256) :
    k0_pay1 (F := Ideal) (k0_pay6 xk wk sq) (k0_pay7 xk wv) sa (constant S512x256 .f32 0x00000000#32) (ix2 r f)
      = sa (ix2 r f) + Attn.tileTerm X Wq Wk Wv b (rowQ r) f j.val := by
  subst hwk hwv
  rw [pay1_at]
  unfold Attn.tileTerm
  rw [dif_pos j.isLt]
  refine congrArg (fun t => sa (ix2 r f) + t * Attn.c₁) (Finset.sum_congr rfl fun u _ => ?_)
  rw [pay6_at, pay7_at]
  unfold Attn.score
  refine congrArg₂ (fun s p => Attn.act (s * Attn.c₁) * p) (Finset.sum_congr rfl fun f' _ => ?_) ?_
  · rw [hsq]
    unfold Attn.proj
    refine congrArg (fun t => (∑ e : Fin 256, X (ix3 b (rowQ r) e) * Wq (ix2 f' e)) * Attn.c₁ * (t * Attn.c₁))
      (Finset.sum_congr rfl fun e _ => ?_)
    rw [hk]
  · unfold Attn.proj
    refine congrArg (fun t => t * Attn.c₂) (Finset.sum_congr rfl fun e _ => ?_)
    rw [hk]

/-- The first step, over key tile 0 into the zeroed accumulator. -/
theorem first_tile (xk : Vec Ideal S1x512x256 .f32) (wk wv : Vec Ideal S256x256 .f32) (sq : Vec Ideal S512x256 .f32)
    (hk : ∀ (u : Fin 512) (e : Fin 256), xk (ix3 (0 : Fin 1) u e) = X (ix3 b (Attn.keyRow (0 : Fin 8) u) e)) (hwk : wk = Wk) (hwv : wv = Wv)
    (hsq : ∀ (r : Fin 512) (f : Fin 256), sq (ix2 r f) = Attn.proj X Wq Attn.c₁ b (rowQ r) f) (r : Fin 512) (f : Fin 256) :
    k0_pay1 (F := Ideal) (k0_pay6 xk wk sq) (k0_pay7 xk wv) (k0_pay4 (F := Ideal)) (constant S512x256 .f32 0x00000000#32) (ix2 r f)
      = Attn.accUpTo X Wq Wk Wv b (rowQ r) f 0 := by
  rw [step_tile X Wq Wk Wv b rowQ (0 : Fin 8) xk wk wv sq (k0_pay4 (F := Ideal)) hk hwk hwv hsq r f, pay4_at, zero_add,
    Attn.accUpTo_zero]
  rfl

/-- The output projection of an accumulator that holds all eight tiles. -/
theorem out_tile (sa : Vec Ideal S512x256 .f32) (wo : Vec Ideal S256x256 .f32) (hwo : wo = Wo)
    (hsa : ∀ (r : Fin 512) (f : Fin 256), sa (ix2 r f) = Attn.accUpTo X Wq Wk Wv b (rowQ r) f 7) (r : Fin 512) (g : Fin 256) :
    k0_pay2 (F := Ideal) sa wo (ix3 (0 : Fin 1) r g) = Attn.result X Wq Wk Wv Wo (ix3 b (rowQ r) g) := by
  subst hwo
  rw [pay2_at]
  unfold Attn.result
  refine congrArg (fun t => t * Attn.c₂) (Finset.sum_congr rfl fun f _ => ?_)
  rw [hsa, ← Attn.mix_eq_accUpTo]

end Cert.KernelIdeal.AttnValue

end
-- ==== Proof.Carried.lean ====
/-
  The attention kernel's result, as arithmetic over the extended reals.

  By induction over the 256 grid points (batch b, query tile i, key tile j; the key tile fastest): after the body at a
  point the first scratch holds the query tile's projection — rows 512·i .. 512·i+511 of `proj x Wq c₁` — and the second
  the accumulator after key tiles 0..j, `accUpTo … j`. At a first key tile both are what the run just computed from the
  point's blocks; at a later one the projection is what the point before left and the accumulator that one's plus this
  key tile's term. At the last key tile the output block is the accumulator after all eight tiles against Wo — by the
  specification's one law (`mix_eq_accUpTo`) the reference's `result` at the block's rows. The last key tiles' blocks
  tile the result array, so after the run it is `result` of the five argument arrays.
-/
import proofs.«120606_j7679401525969_1_alg».proof.Proof.KernelIdeal.Pieces
import proofs.«120606_j7679401525969_1_alg».proof.Proof.KernelIdeal.Blocks
import proofs.«120606_j7679401525969_1_alg».proof.Proof.KernelIdeal.Launch
import proofs.«120606_j7679401525969_1_alg».proof.Proof.TileStep
import Idealize.ShloMosaic.Lib.Pipeline.Value

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The five argument arrays on core `c`, as the specification's functions of an index. -/
abbrev aX (c : Dev nD) : Attn.SX.Idx → EReal := V m c main_arg0
abbrev aWq (c : Dev nD) : Attn.SW.Idx → EReal := V m c main_arg1
abbrev aWk (c : Dev nD) : Attn.SW.Idx → EReal := V m c main_arg2
abbrev aWv (c : Dev nD) : Attn.SW.Idx → EReal := V m c main_arg3
abbrev aWo (c : Dev nD) : Attn.SW.Idx → EReal := V m c main_arg4

/-- The key tile of a point, as an index of the eight tiles. -/
def kTile (t : Fin cfg0.N) : Fin 8 := ⟨t.val % 8, Nat.mod_lt _ (by norm_num)⟩

theorem kRow_eq (t : Fin cfg0.N) (u : Fin 512) : kRow t u = Attn.keyRow (kTile t) u := rfl

/-- Within one query tile (the next point is not a first key tile) batch and query rows do not move. -/
theorem bOf_succ (n : ℕ) (hn : n + 1 < cfg0.N) (h : ¬(n + 1) % 8 = 0) :
    bOf ⟨n + 1, hn⟩ = bOf ⟨n, Nat.lt_of_succ_lt hn⟩ := by
  apply Fin.ext; show (n + 1) / 64 = n / 64; omega
theorem qRow_succ (n : ℕ) (hn : n + 1 < cfg0.N) (h : ¬(n + 1) % 8 = 0) (r : Fin 512) :
    qRow ⟨n + 1, hn⟩ r = qRow ⟨n, Nat.lt_of_succ_lt hn⟩ r := by
  apply Fin.ext; show 512 * ((n + 1) / 8 % 8) + r.val = 512 * (n / 8 % 8) + r.val; omega

/-- THE INVARIANT: after the body at point `n`, the projection and the accumulator. -/
theorem scr_inv (c : Dev nD) : ∀ (n : ℕ) (hn : n < cfg0.N),
    (∀ (r : Fin 512) (f : Fin 256), (scrAt m c n hn).1 (ix2 r f)
        = Attn.proj (aX m c) (aWq m c) Attn.c₁ (bOf ⟨n, hn⟩) (qRow ⟨n, hn⟩ r) f)
    ∧ (∀ (r : Fin 512) (f : Fin 256), (scrAt m c n hn).2 (ix2 r f)
        = Attn.accUpTo (aX m c) (aWq m c) (aWk m c) (aWv m c) (bOf ⟨n, hn⟩) (qRow ⟨n, hn⟩ r) f (n % 8)) := by
  intro n
  induction n with
  | zero =>
    intro hn
    have h0 : (⟨0, hn⟩ : Fin cfg0.N).val % 8 = 0 := rfl
    have hproj : ∀ (r : Fin 512) (f : Fin 256), k0_pay3 (F := Ideal) (xqB m c ⟨0, hn⟩) (wqB m c ⟨0, hn⟩) (ix2 r f)
        = Attn.proj (aX m c) (aWq m c) Attn.c₁ (bOf ⟨0, hn⟩) (qRow ⟨0, hn⟩ r) f := fun r f =>
      proj_tile (aX m c) (aWq m c) (bOf ⟨0, hn⟩) (qRow ⟨0, hn⟩) (xqB m c ⟨0, hn⟩) (wqB m c ⟨0, hn⟩)
        (fun r e => xqB_at m c ⟨0, hn⟩ r e) (wqB_eq m c ⟨0, hn⟩) r f
    refine ⟨fun r f => ?_, fun r f => ?_⟩
    · rw [show scrAt m c 0 hn = scrAt m c (⟨0, hn⟩ : Fin cfg0.N).val (⟨0, hn⟩ : Fin cfg0.N).isLt from rfl, scrAt_first m c ⟨0, hn⟩ h0]
      dsimp only; rw [sqFirst_eq]; exact hproj r f
    · rw [show scrAt m c 0 hn = scrAt m c (⟨0, hn⟩ : Fin cfg0.N).val (⟨0, hn⟩ : Fin cfg0.N).isLt from rfl, scrAt_first m c ⟨0, hn⟩ h0]
      dsimp only; rw [saFirst_eq]
      exact first_tile (aX m c) (aWq m c) (aWk m c) (aWv m c) (bOf ⟨0, hn⟩) (qRow ⟨0, hn⟩)
        (xkB m c ⟨0, hn⟩) (wkB m c ⟨0, hn⟩) (wvB m c ⟨0, hn⟩) _
        (fun u e => (xkB_at m c ⟨0, hn⟩ u e).trans (by rw [kRow_eq, show kTile ⟨0, hn⟩ = (0 : Fin 8) from rfl])) (wkB_eq m c ⟨0, hn⟩) (wvB_eq m c ⟨0, hn⟩) hproj r f
  | succ n ih =>
    intro hn
    have hn' : n < cfg0.N := Nat.lt_of_succ_lt hn
    obtain ⟨ihq, iha⟩ := ih hn'
    by_cases h0 : (n + 1) % 8 = 0
    · -- a first key tile: as at point 0
      have h0' : (⟨n + 1, hn⟩ : Fin cfg0.N).val % 8 = 0 := h0
      have hproj : ∀ (r : Fin 512) (f : Fin 256), k0_pay3 (F := Ideal) (xqB m c ⟨n + 1, hn⟩) (wqB m c ⟨n + 1, hn⟩) (ix2 r f)
          = Attn.proj (aX m c) (aWq m c) Attn.c₁ (bOf ⟨n + 1, hn⟩) (qRow ⟨n + 1, hn⟩ r) f := fun r f =>
        proj_tile (aX m c) (aWq m c) (bOf ⟨n + 1, hn⟩) (qRow ⟨n + 1, hn⟩) (xqB m c ⟨n + 1, hn⟩) (wqB m c ⟨n + 1, hn⟩)
          (fun r e => xqB_at m c ⟨n + 1, hn⟩ r e) (wqB_eq m c ⟨n + 1, hn⟩) r f
      refine ⟨fun r f => ?_, fun r f => ?_⟩
      · rw [show scrAt m c (n + 1) hn = scrAt m c (⟨n + 1, hn⟩ : Fin cfg0.N).val (⟨n + 1, hn⟩ : Fin cfg0.N).isLt from rfl, scrAt_first m c ⟨n + 1, hn⟩ h0']
        dsimp only; rw [sqFirst_eq]; exact hproj r f
      · rw [show scrAt m c (n + 1) hn = scrAt m c (⟨n + 1, hn⟩ : Fin cfg0.N).val (⟨n + 1, hn⟩ : Fin cfg0.N).isLt from rfl, scrAt_first m c ⟨n + 1, hn⟩ h0']
        dsimp only; rw [saFirst_eq, h0]
        exact first_tile (aX m c) (aWq m c) (aWk m c) (aWv m c) (bOf ⟨n + 1, hn⟩) (qRow ⟨n + 1, hn⟩)
          (xkB m c ⟨n + 1, hn⟩) (wkB m c ⟨n + 1, hn⟩) (wvB m c ⟨n + 1, hn⟩) _
          (fun u e => (xkB_at m c ⟨n + 1, hn⟩ u e).trans (by rw [kRow_eq, show kTile ⟨n + 1, hn⟩ = (0 : Fin 8) from Fin.ext h0])) (wkB_eq m c ⟨n + 1, hn⟩) (wvB_eq m c ⟨n + 1, hn⟩) hproj r f
    · -- a later key tile of the same query tile
      have h0' : ¬(⟨n + 1, hn⟩ : Fin cfg0.N).val % 8 = 0 := h0
      have hb : bOf ⟨n + 1, hn⟩ = bOf ⟨n, hn'⟩ := bOf_succ n hn h0
      have hq : ∀ r, qRow ⟨n + 1, hn⟩ r = qRow ⟨n, hn'⟩ r := qRow_succ n hn h0
      have hmod : (n + 1) % 8 = n % 8 + 1 := by omega
      have hbefore : scrBefore m c (⟨n + 1, hn⟩ : Fin cfg0.N).val (⟨n + 1, hn⟩ : Fin cfg0.N).isLt = scrAt m c n hn' := rfl
      have hsq : ∀ (r : Fin 512) (f : Fin 256), (scrAt m c n hn').1 (ix2 r f)
          = Attn.proj (aX m c) (aWq m c) Attn.c₁ (bOf ⟨n + 1, hn⟩) (qRow ⟨n + 1, hn⟩ r) f := fun r f => by
        rw [hb, hq]; exact ihq r f
      have hstep : ∀ (r : Fin 512) (f : Fin 256),
          k0_pay1 (F := Ideal) (k0_pay6 (xkB m c ⟨n + 1, hn⟩) (wkB m c ⟨n + 1, hn⟩) (scrAt m c n hn').1) (k0_pay7 (xkB m c ⟨n + 1, hn⟩) (wvB m c ⟨n + 1, hn⟩))
              (scrAt m c n hn').2 (constant S512x256 .f32 0x00000000#32) (ix2 r f)
            = Attn.accUpTo (aX m c) (aWq m c) (aWk m c) (aWv m c) (bOf ⟨n + 1, hn⟩) (qRow ⟨n + 1, hn⟩ r) f ((n + 1) % 8) := fun r f => by
        rw [step_tile (aX m c) (aWq m c) (aWk m c) (aWv m c) (bOf ⟨n + 1, hn⟩) (qRow ⟨n + 1, hn⟩) (kTile ⟨n + 1, hn⟩)
          (xkB m c ⟨n + 1, hn⟩) (wkB m c ⟨n + 1, hn⟩) (wvB m c ⟨n + 1, hn⟩) (scrAt m c n hn').1 (scrAt m c n hn').2
          (fun u e => (xkB_at m c ⟨n + 1, hn⟩ u e).trans (by rw [kRow_eq])) (wkB_eq m c ⟨n + 1, hn⟩) (wvB_eq m c ⟨n + 1, hn⟩) hsq r f]
        rw [show (kTile ⟨n + 1, hn⟩).val = n % 8 + 1 from hmod, iha r f, ← hb, ← hq, hmod, Attn.accUpTo_succ]
      by_cases h1 : (n + 1) % 8 = 7
      · have h1' : (⟨n + 1, hn⟩ : Fin cfg0.N).val % 8 = 7 := h1
        refine ⟨fun r f => ?_, fun r f => ?_⟩
        · rw [show scrAt m c (n + 1) hn = scrAt m c (⟨n + 1, hn⟩ : Fin cfg0.N).val (⟨n + 1, hn⟩ : Fin cfg0.N).isLt from rfl, scrAt_last m c ⟨n + 1, hn⟩ h0' h1', hbefore]
          exact hsq r f
        · rw [show scrAt m c (n + 1) hn = scrAt m c (⟨n + 1, hn⟩ : Fin cfg0.N).val (⟨n + 1, hn⟩ : Fin cfg0.N).isLt from rfl, scrAt_last m c ⟨n + 1, hn⟩ h0' h1', hbefore]
          dsimp only; rw [saLast_eq]; exact hstep r f
      · have h1' : ¬(⟨n + 1, hn⟩ : Fin cfg0.N).val % 8 = 7 := h1
        refine ⟨fun r f => ?_, fun r f => ?_⟩
        · rw [show scrAt m c (n + 1) hn = scrAt m c (⟨n + 1, hn⟩ : Fin cfg0.N).val (⟨n + 1, hn⟩ : Fin cfg0.N).isLt from rfl, scrAt_mid m c ⟨n + 1, hn⟩ h0' h1', hbefore]
          exact hsq r f
        · rw [show scrAt m c (n + 1) hn = scrAt m c (⟨n + 1, hn⟩ : Fin cfg0.N).val (⟨n + 1, hn⟩ : Fin cfg0.N).isLt from rfl, scrAt_mid m c ⟨n + 1, hn⟩ h0' h1', hbefore]
          dsimp only; rw [saMid_eq]; exact hstep r f

/-- The output block a last key tile stores is the reference's result at the block's rows. -/
theorem out_at (c : Dev nD) (t : Fin cfg0.N) (h1 : t.val % 8 = 7) (r : Fin 512) (g : Fin 256) :
    outAt m c t (ix3 (0 : Fin 1) r g)
      = Attn.result (aX m c) (aWq m c) (aWk m c) (aWv m c) (aWo m c) (ix3 (bOf t) (qRow t r) g) := by
  have h0 : ¬t.val % 8 = 0 := by omega
  rw [outAt_last m c t h0 h1, outLast_eq]
  refine out_tile (aX m c) (aWq m c) (aWk m c) (aWv m c) (aWo m c) (bOf t) (qRow t) _ (woB m c t) (woB_eq m c t) (fun r f => ?_) r g
  have h := (scr_inv m c t.val t.isLt).2 r f
  rw [scrAt_last m c t h0 h1] at h
  dsimp only at h
  rw [saLast_eq, h1] at h
  exact h

/-- What a last key tile writes back is its block of `result`. -/
theorem flushed6_eq (c : Dev nD) (t : Fin cfg0.N) (hf : (cfg0.win 6).flush t = true) :
    (dats m 0 c).flushed 6 t
      = ((cfg0.win 6).blk t).view.read (Elt Ideal) (Attn.result (aX m c) (aWq m c) (aWk m c) (aWv m c) (aWo m c)) := by
  have h1 : t.val % 8 = 7 := (flush0_6 t).mp hf
  show (cfg0.win 6).cut (grid0.coords t) ((dats m 0 c).after 6 t) = _
  rw [after6]
  funext y
  obtain ⟨z, r, g, rfl⟩ : ∃ (z : Fin 1) (r : Fin 512) (g : Fin 256), y = ix3 z r g := ⟨y 0, y 1, y 2, eq_ix3 y⟩
  obtain rfl : z = 0 := Subsingleton.elim _ _
  rw [outBlk_at c t _ r g]
  exact out_at m c t h1 r g

/-- THE RESULT ARRAY after the run. -/
theorem final6 (c : Dev nD) :
    (dats m 0 c).arrAt 6 cfg0.N = Attn.result (aX m c) (aWq m c) (aWk m c) (aWv m c) (aWo m c) :=
  (dats m 0 c).arrAt_eq_of_cover 6 _ (fun t hf => flushed6_eq m c t hf) (cover6 c)

/-- The kernel's run, read: the result array at `result` of the argument arrays, the arguments unchanged. -/
theorem run_result : θ_run defs (onTc (τ := τ) (main (F := Ideal))) ⟨m, fun _ => 0, ρ⟩ (fun r => ∀ c : Dev nD,
      r.2.mem ((c.tc : Thread nD τ).loc main_v0) = Attn.result (aX m c) (aWq m c) (aWk m c) (aWv m c) (aWo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final6 m c), (h c).2⟩) (run_named m ρ)

end Cert.KernelIdeal.AttnValue

end
-- ==== Proof.RefStages.lean ====
/-
  The reference program read one operation at a time: the stages of its seven products and scalings, each read at an
  index, composed into one function of the five argument arrays.

  The program computes, for x : [4, 4096, 256] and four weights [256, 256] stored [out, in],
    q = (x · Wqᵀ) · c₁,  k = (x · Wkᵀ) · c₁,  v = (x · Wvᵀ) · c₂,
    a = (q · kᵀ) · c₁  per batch,   p = a · a · c₂ + a · c₂,
    m = (p · v) · c₁   per batch,   result = (m · Woᵀ) · c₂.
  Each product is a sum over its one contracted axis; each scaling multiplies every element by the same constant.
  Read at the index (b, s, ·) every stage is the corresponding function of the specification, and the last one is
  `Attn.result`.
-/
import proofs.«120606_j7679401525969_1_alg».proof.Proof.Gen.ReferenceIdeal.Read
import proofs.«120606_j7679401525969_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The activations' and the weights' contents at the ideal instance. -/
abbrev XT : Type := (⟨S4x4096x256, .f32⟩ : BufTy).Contents (Elt Ideal)
abbrev WT : Type := (⟨S256x256, .f32⟩ : BufTy).Contents (Elt Ideal)

/-! ## The index functions of the products, at an index given by coordinates -/

section Indices
variable (b : Fin 4) (s t : Fin 4096) (f g e : Fin 256)

/-- A projection reads the activations' row (b, s) along the contracted feature … -/
theorem lidx_v0 : lidx_main_v0 (ix3 b s f) e = ix3 b s e :=
  funext fun a => by match a with | ⟨0, _⟩ => rfl | ⟨1, _⟩ => rfl | ⟨2, _⟩ => rfl
/-- … and the weight's row f (stored [out, in]) along the same feature. -/
theorem ridx_v0 : ridx_main_v0 (ix3 b s f) e = ix2 f e :=
  funext fun a => by match a with | ⟨0, _⟩ => rfl | ⟨1, _⟩ => rfl
theorem lidx_v3 : lidx_main_v3 (ix3 b s f) e = ix3 b s e :=
  funext fun a => by match a with | ⟨0, _⟩ => rfl | ⟨1, _⟩ => rfl | ⟨2, _⟩ => rfl
theorem ridx_v3 : ridx_main_v3 (ix3 b s f) e = ix2 f e :=
  funext fun a => by match a with | ⟨0, _⟩ => rfl | ⟨1, _⟩ => rfl
theorem lidx_v6 : lidx_main_v6 (ix3 b s f) e = ix3 b s e :=
  funext fun a => by match a with | ⟨0, _⟩ => rfl | ⟨1, _⟩ => rfl | ⟨2, _⟩ => rfl
theorem ridx_v6 : ridx_main_v6 (ix3 b s f) e = ix2 f e :=
  funext fun a => by match a with | ⟨0, _⟩ => rfl | ⟨1, _⟩ => rfl
/-- The score of query row s against key row t contracts the feature of q's row (b, s) … -/
theorem lidx_v9 : lidx_main_v9 (ix3 b s t) f = ix3 b s f :=
  funext fun a => by match a with | ⟨0, _⟩ => rfl | ⟨1, _⟩ => rfl | ⟨2, _⟩ => rfl
/-- … with the feature of k's row (b, t). -/
theorem ridx_v9 : ridx_main_v9 (ix3 b s t) f = ix3 b t f :=
  funext fun a => by match a with | ⟨0, _⟩ => rfl | ⟨1, _⟩ => rfl | ⟨2, _⟩ => rfl
/-- The mixing product contracts the key t of the activated scores' row (b, s) … -/
theorem lidx_v18 : lidx_main_v18 (ix3 b s f) t = ix3 b s t :=
  funext fun a => by match a with | ⟨0, _⟩ => rfl | ⟨1, _⟩ => rfl | ⟨2, _⟩ => rfl
/-- … with v's column f of the same batch. -/
theorem ridx_v18 : ridx_main_v18 (ix3 b s f) t = ix3 b t f :=
  funext fun a => by match a with | ⟨0, _⟩ => rfl | ⟨1, _⟩ => rfl | ⟨2, _⟩ => rfl
/-- The output projection reads the mix's row (b, s) along the contracted feature … -/
theorem lidx_v21 : lidx_main_v21 (ix3 b s g) f = ix3 b s f :=
  funext fun a => by match a with | ⟨0, _⟩ => rfl | ⟨1, _⟩ => rfl | ⟨2, _⟩ => rfl
/-- … and the output weight's row g. -/
theorem ridx_v21 : ridx_main_v21 (ix3 b s g) f = ix2 g f :=
  funext fun a => by match a with | ⟨0, _⟩ => rfl | ⟨1, _⟩ => rfl

end Indices

/-! ## The stages -/

/-- The query projection: the first product scaled by c₁. -/
theorem q_stage (x0 : XT) (x1 : WT) (b : Fin 4) (s : Fin 4096) (f : Fin 256) :
    val_main_v2 (F := Ideal) x0 x1 (ix3 b s f) = Attn.proj x0 x1 Attn.c₁ b s f := by
  rw [val_main_v2_apply, val_main_v0_apply, val_main_v1_apply, val_main_cst_apply]
  simp only [Ideal.mulf_def, Ideal.ofBits_def, lidx_v0, ridx_v0]
  rfl

/-- The key projection: the second product scaled by c₁. -/
theorem k_stage (x0 : XT) (x2 : WT) (b : Fin 4) (s : Fin 4096) (f : Fin 256) :
    val_main_v5 (F := Ideal) x0 x2 (ix3 b s f) = Attn.proj x0 x2 Attn.c₁ b s f := by
  rw [val_main_v5_apply, val_main_v3_apply, val_main_v4_apply, val_main_cst_0_apply]
  simp only [Ideal.mulf_def, Ideal.ofBits_def, lidx_v3, ridx_v3]
  rfl

/-- The value projection: the third product scaled by c₂. -/
theorem v_stage (x0 : XT) (x3 : WT) (b : Fin 4) (s : Fin 4096) (f : Fin 256) :
    val_main_v8 (F := Ideal) x0 x3 (ix3 b s f) = Attn.proj x0 x3 Attn.c₂ b s f := by
  rw [val_main_v8_apply, val_main_v6_apply, val_main_v7_apply, val_main_cst_1_apply]
  simp only [Ideal.mulf_def, Ideal.ofBits_def, lidx_v6, ridx_v6]
  rfl

/-- The score: q's rows against k's rows over the feature, scaled by c₁. -/
theorem score_stage (x0 : XT) (x1 x2 : WT) (b : Fin 4) (s t : Fin 4096) :
    val_main_v11 (F := Ideal) x0 x1 x2 (ix3 b s t) = Attn.score x0 x1 x2 b s t := by
  rw [val_main_v11_apply, val_main_v9_apply, val_main_v10_apply, val_main_cst_2_apply]
  simp only [Ideal.mulf_def, Ideal.ofBits_def, lidx_v9, ridx_v9, q_stage, k_stage]
  rfl

/-- The activation, elementwise on the scores: a · a · c₂ + a · c₂. -/
theorem act_stage (x0 : XT) (x1 x2 : WT) (i : S4x4096x4096.Idx) :
    val_main_v17 (F := Ideal) x0 x1 x2 i = Attn.act (val_main_v11 (F := Ideal) x0 x1 x2 i) := by
  rw [val_main_v17_apply, val_main_v14_apply, val_main_v16_apply, val_main_v12_apply, val_main_v13_apply,
    val_main_v15_apply, val_main_cst_3_apply, val_main_cst_4_apply]
  simp only [Ideal.mulf_def, Ideal.addf_def, Ideal.ofBits_def]
  rfl

/-- The mix: the activated scores against v over all 4096 keys, scaled by c₁. -/
theorem mix_stage (x0 : XT) (x1 x2 x3 : WT) (b : Fin 4) (s : Fin 4096) (f : Fin 256) :
    val_main_v20 (F := Ideal) x0 x1 x2 x3 (ix3 b s f) = Attn.mix x0 x1 x2 x3 b s f := by
  rw [val_main_v20_apply, val_main_v18_apply, val_main_v19_apply, val_main_cst_5_apply]
  simp only [Ideal.mulf_def, Ideal.ofBits_def, lidx_v18, ridx_v18, act_stage, score_stage, v_stage]
  rfl

/-- The output projection of the mix, scaled by c₂, at an index given by coordinates. -/
theorem result_stage (x0 : XT) (x1 x2 x3 x4 : WT) (b : Fin 4) (s : Fin 4096) (g : Fin 256) :
    val_main_v23 (F := Ideal) x0 x1 x2 x3 x4 (ix3 b s g) = Attn.result x0 x1 x2 x3 x4 (ix3 b s g) := by
  rw [val_main_v23_apply, val_main_v21_apply, val_main_v22_apply, val_main_cst_6_apply]
  simp only [Ideal.mulf_def, Ideal.ofBits_def, lidx_v21, ridx_v21, mix_stage]
  rfl

/-- THE REFERENCE IS THE SPECIFICATION: the program's last stage, as a function of the five argument arrays
    (x0 = x, x1 = Wq, x2 = Wk, x3 = Wv, x4 = Wo), is `Attn.result`. -/
theorem ref_is_result (x0 : (⟨S4x4096x256, .f32⟩ : BufTy).Contents (Elt Ideal))
    (x1 x2 x3 x4 : (⟨S256x256, .f32⟩ : BufTy).Contents (Elt Ideal)) :
    Cert.ReferenceIdeal.Read.val_main_v23 (F := Ideal) x0 x1 x2 x3 x4 = Attn.result x0 x1 x2 x3 x4 := by
  funext i
  obtain ⟨b, s, g, rfl⟩ : ∃ (b : Fin 4) (s : Fin 4096) (g : Fin 256), i = ix3 b s g := ⟨i 0, i 1, i 2, eq_ix3 i⟩
  exact result_stage x0 x1 x2 x3 x4 b s g

/-! ## The run's term -/

/-- The term the program's run leaves in its result, composed of the operations, is the last stage (at every float
    instance): the two are the same term, the stages only naming its parts. -/
theorem ref_term_is_stage {F : FTy → Type} [FloatOps F] (x0 : (⟨S4x4096x256, .f32⟩ : BufTy).Contents (Elt F))
    (x1 x2 x3 x4 : (⟨S256x256, .f32⟩ : BufTy).Contents (Elt F)) :
    mulf (Host.dotGeneral dot_S4x4096x256_S256x256_S4x4096x256_2_1_01_0_n_n none (mulf (Host.dotGeneral dot_S4x4096x4096_S4x4096x256_S4x4096x256_2_1_1_2_0_0 none (addf (mulf (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32)))) (broadcastInDim S4x4096x4096 ![] bcast_S_S4x4096x4096 (constant S_ .f32 0x3DCCCCCD#32))) (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (broadcastInDim S4x4096x4096 ![] bcast_S_S4x4096x4096 (constant S_ .f32 0x3DCCCCCD#32)))) (mulf (Host.dotGeneral dot_S4x4096x256_S256x256_S4x4096x256_2_1_01_0_n_n none (x0) (x3)) (broadcastInDim S4x4096x256 ![] bcast_S_S4x4096x256 (constant S_ .f32 0x3DCCCCCD#32)))) (broadcastInDim S4x4096x256 ![] bcast_S_S4x4096x256 (constant S_ .f32 0x3C23D70A#32))) (x4)) (broadcastInDim S4x4096x256 ![] bcast_S_S4x4096x256 (constant S_ .f32 0x3DCCCCCD#32))
      = Cert.ReferenceIdeal.Read.val_main_v23 (F := F) x0 x1 x2 x3 x4 :=
  Cert.ReferenceIdeal.Read.val_main_v23_eq x0 x1 x2 x3 x4

/-- The same term, named: the operations composed, as a function of the five argument arrays. -/
abbrev runTerm {F : FTy → Type} [FloatOps F] (x0 : (⟨S4x4096x256, .f32⟩ : BufTy).Contents (Elt F))
    (x1 x2 x3 x4 : (⟨S256x256, .f32⟩ : BufTy).Contents (Elt F)) : (⟨S4x4096x256, .f32⟩ : BufTy).Contents (Elt F) :=
  mulf (Host.dotGeneral dot_S4x4096x256_S256x256_S4x4096x256_2_1_01_0_n_n none (mulf (Host.dotGeneral dot_S4x4096x4096_S4x4096x256_S4x4096x256_2_1_1_2_0_0 none (addf (mulf (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32)))) (broadcastInDim S4x4096x4096 ![] bcast_S_S4x4096x4096 (constant S_ .f32 0x3DCCCCCD#32))) (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (broadcastInDim S4x4096x4096 ![] bcast_S_S4x4096x4096 (constant S_ .f32 0x3DCCCCCD#32)))) (mulf (Host.dotGeneral dot_S4x4096x256_S256x256_S4x4096x256_2_1_01_0_n_n none (x0) (x3)) (broadcastInDim S4x4096x256 ![] bcast_S_S4x4096x256 (constant S_ .f32 0x3DCCCCCD#32)))) (broadcastInDim S4x4096x256 ![] bcast_S_S4x4096x256 (constant S_ .f32 0x3C23D70A#32))) (x4)) (broadcastInDim S4x4096x256 ![] bcast_S_S4x4096x256 (constant S_ .f32 0x3DCCCCCD#32))

/-- At the ideal instance the run's term is the specification's result. -/
theorem run_term_eq (x0 : (⟨S4x4096x256, .f32⟩ : BufTy).Contents (Elt Ideal))
    (x1 x2 x3 x4 : (⟨S256x256, .f32⟩ : BufTy).Contents (Elt Ideal)) :
    runTerm (F := Ideal) x0 x1 x2 x3 x4 = Attn.result x0 x1 x2 x3 x4 :=
  (ref_term_is_stage (F := Ideal) x0 x1 x2 x3 x4).trans (ref_is_result x0 x1 x2 x3 x4)

end Cert.ReferenceIdeal.RefValue

end
-- ==== Proof.lean ====
/-
  The certificate of a Pallas attention kernel against its jnp reference, over the extended reals.

  Both programs compute, for activations x : [4, 4096, 256] and four 256 x 256 weights stored [out, in],

      out[b,s,g] = (Σ_f mix[b,s,f] · Wo[g,f]) · c₂,   mix[b,s,f] = (Σ_t act(score[b,s,t]) · v[b,t,f]) · c₁,
      score[b,s,t] = (Σ_f q[b,s,f] · k[b,t,f]) · c₁,  act a = a·a·c₂ + a·c₂,   q, k, v = (x · Wᵀ) · c₁, c₁, c₂

  with c₁, c₂ the binary values of single-precision 0.01 and 0.1 — the same words in both programs (Proof/Spec.lean). The
  reference computes it with seven whole-array products (Proof/RefStages.lean reads its stages into that formula). The
  kernel walks a 4 x 8 x 8 grid — batch, query tile of 512 rows, key tile of 512 rows — keeping the query tile's
  projection and an accumulator in two scratch buffers across the eight key tiles, scaling each key tile's partial sum by c₁
  before adding it, and writing the output block at the last key tile. Its frame (Proof/KernelIdeal/, and the same text
  at the word-level program in Proof/Kernel/) runs the body once per kind of grid point and launches the one region with
  the activations' array — which the kernel is handed twice, as the query block's window and the key block's — split in
  two half shares. Its value (Proof/Carried.lean) is an induction over the grid points; the two arrangements of the key
  sum are joined by one law: a sum over 4096 keys is the sum of the eight tiles' sums, and scaling by a nonnegative real
  distributes over any sum of extended reals. No finiteness of the inputs is used.
-/
import proofs.«120606_j7679401525969_1_alg».proof.Defs
import proofs.«120606_j7679401525969_1_alg».proof.Proof.Gen.Kernel
import proofs.«120606_j7679401525969_1_alg».proof.Proof.Gen.KernelIdeal
import proofs.«120606_j7679401525969_1_alg».proof.Proof.Gen.ReferenceIdeal
import proofs.«120606_j7679401525969_1_alg».proof.Proof.Gen.Pre_finite_inputs
import proofs.«120606_j7679401525969_1_alg».proof.Proof.Gen.ReferenceIdeal.Run
import proofs.«120606_j7679401525969_1_alg».proof.Proof.Kernel.Launch
import proofs.«120606_j7679401525969_1_alg».proof.Proof.KernelIdeal.Launch
import proofs.«120606_j7679401525969_1_alg».proof.Proof.Carried
import proofs.«120606_j7679401525969_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs, and its five argument arrays end unchanged. -/
theorem frame_k : Cert.frame_Kernel := fun m ρ _ => Cert.Kernel.Attn.frame m ρ

/-- The same of the idealized kernel. -/
theorem frame_ki : Cert.frame_KernelIdeal := fun m ρ _ => Cert.KernelIdeal.Attn.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at `Attn.result` of the argument arrays. -/
theorem algebraic : Cert.algebraic_KernelIdeal_ReferenceIdeal := by
  intro m ρ m' ρ' _ hagree
  refine ⟨fun c => Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.AttnValue.run_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.run_term_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
